-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x128 : Shape := ⟨2, ![128, 128]⟩
abbrev S128 : Shape := ⟨1, ![128]⟩
abbrev S2048x128 : Shape := ⟨2, ![2048, 128]⟩
abbrev S128x256 : Shape := ⟨2, ![128, 256]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2048x128 : S_.BroadcastsInDim S2048x128 (![] : Fin 0 → Fin S2048x128.rank)
  reducesTo_S2048x128_S_d0_1 : S2048x128.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg4 : FVec F S2048x128 .f32) (main_arg5 : FVec F S128x256 .f32) (main_arg6 : FVec F S128 .f32) (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  let main_v19 : FVec F S2048x128 .f32 := Host.absf main_arg4
  let main_cst_6 : FVec F S_ .f32 := constant S_ .f32 0x7F800000#32
  let main_v20 : FVec F S2048x128 .f32 := broadcastInDim S2048x128 ![] bcast_S_S2048x128 main_cst_6
  let main_v21 : IVec S2048x128 1 := cmpf .olt main_v19 main_v20
  let main_c_7 : IVec S_ 1 := constantI S_ 1 1#1
  let main_v22 : IVec S_ 1 := (fun x v => Host.reduce IntOp.andi x v reducesTo_S2048x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S16384x128 .f32) (main_arg1 : FVec F S128x128 .f32) (main_arg2 : FVec F S128 .f32) (main_arg3 : FVec F S2048x128 .f32) (main_arg4 : FVec F S2048x128 .f32) (main_arg5 : FVec F S128x256 .f32) (main_arg6 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_arg4 main_arg5 main_arg6 main_v13 main_v16
-- ==== Kernel.lean ====
abbrev S16384x128 : Shape := ⟨2, ![16384, 128]⟩
abbrev S128x128 : Shape := ⟨2, ![128, 128]⟩
abbrev S128 : Shape := ⟨1, ![128]⟩
abbrev S2048x128 : Shape := ⟨2, ![2048, 128]⟩
abbrev S128x256 : Shape := ⟨2, ![128, 256]⟩
abbrev S256x128 : Shape := ⟨2, ![256, 128]⟩
abbrev S1x128 : Shape := ⟨2, ![1, 128]⟩
abbrev S_ : Shape := ⟨0, ![]⟩
abbrev S2048 : Shape := ⟨1, ![2048]⟩
abbrev S2048x1 : Shape := ⟨2, ![2048, 1]⟩
abbrev S128x2048 : Shape := ⟨2, ![128, 2048]⟩
abbrev S1024x128 : Shape := ⟨2, ![1024, 128]⟩
abbrev S1024 : Shape := ⟨1, ![1024]⟩
abbrev S1024x1 : Shape := ⟨2, ![1024, 1]⟩
abbrev S1024x2048 : Shape := ⟨2, ![1024, 2048]⟩
abbrev S1024x256 : Shape := ⟨2, ![1024, 256]⟩

abbrev nBuf : Space → Nat
  | .hbm => 25
  | .vmem => 12
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S2048x128, .f32⟩
  | .hbm, ⟨4, _⟩ => ⟨S2048x128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S1x128, .f32⟩
  | .hbm, ⟨10, _⟩ => ⟨S1x128, .f32⟩
  | .hbm, ⟨11, _⟩ => ⟨S2048x128, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x128, .f32⟩
  | .hbm, ⟨21, _⟩ => ⟨S2048x128, .f32⟩
  | .hbm, ⟨22, _⟩ => ⟨S128x2048, .f32⟩
  | .hbm, ⟨23, _⟩ => ⟨S16384x128, .f32⟩
  | .hbm, ⟨24, _⟩ => ⟨S16384x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S128x2048, .f32⟩
  | .local _ .vmem, ⟨5, _⟩ => ⟨S2048x128, .f32⟩
  | .local _ .vmem, ⟨6, _⟩ => ⟨S256x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S128x128_S128x128_1_0 : S128x128.Transposes [1, 0] S128x128
  transposes_S128x256_S256x128_1_0 : S128x256.Transposes [1, 0] S256x128
  shapeCasts_S128_S1x128 : S128.ShapeCasts S1x128
  reducesTo_S2048x128_S2048_d1 : S2048x128.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  transposes_S2048x128_S128x2048_1_0 : S2048x128.Transposes [1, 0] S128x2048
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  reduces_S1024x2048_S1024 : S1024x2048.Reduces [1] S1024
  broadcasts_S1024x1_S1024x2048 : S1024x1.Broadcasts S1024x2048
  inb_S2048x128_S2048x128_0_0 : ∀ a, (![0, 0] : Fin 2 → Nat) a + S2048x128.size a ≤ S2048x128.size a
  h_S2048x128 : 0 < S2048x128.numel
  concatenates_S1024x128_S1024x128_S1024x256_d1 : Shape.Concatenates [S1024x128, S1024x128] S1024x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  dot_S1024x128_S128x128_S1024x128_1_0_0_1_n_n_wf : DotDims.WF S1024x128 S128x128 S1024x128 [1] [0] [0] [1] [] []
  dot_S1024x128_S128x2048_S1024x2048_1_0_0_1_n_n_wf : DotDims.WF S1024x128 S128x2048 S1024x2048 [1] [0] [0] [1] [] []
  dot_S1024x2048_S2048x128_S1024x128_1_0_0_1_n_n_wf : DotDims.WF S1024x2048 S2048x128 S1024x128 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x2048.size a
  hwx0_3 : ∀ i : grid0.Coords, EltTy.bits .f32 = 32 ∨ (Rect.block (s := S128x2048) S128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S2048x128.size a
  hwx0_4 : ∀ i : grid0.Coords, EltTy.bits .f32 = 32 ∨ (Rect.block (s := S2048x128) S2048x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S16384x128.size a
  hwx0_7 : ∀ i : grid0.Coords, EltTy.bits .f32 = 32 ∨ (Rect.block (s := S16384x128) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S16384x128.size a
  hwx0_8 : ∀ i : grid0.Coords, EltTy.bits .f32 = 32 ∨ (Rect.block (s := S16384x128) S1024x128.size (cc0_transform_8 i) (hinb0_8 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x128 : Shape := ⟨2, ![128, 128]⟩
abbrev S128 : Shape := ⟨1, ![128]⟩
abbrev S2048x128 : Shape := ⟨2, ![2048, 128]⟩
abbrev S128x256 : Shape := ⟨2, ![128, 256]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S2048 : Shape := ⟨1, ![2048]⟩
abbrev S2048x1 : Shape := ⟨2, ![2048, 1]⟩
abbrev S128x2048 : Shape := ⟨2, ![128, 2048]⟩
abbrev S16384x2048 : Shape := ⟨2, ![16384, 2048]⟩
abbrev S16384x256 : Shape := ⟨2, ![16384, 256]⟩
abbrev S256x128 : Shape := ⟨2, ![256, 128]⟩

abbrev nBuf : Space → Nat
  | .hbm => 64
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S2048x128, .f32⟩
  | .hbm, ⟨4, _⟩ => ⟨S2048x128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S16384x128, .f32⟩
  | .hbm, ⟨9, _⟩ => ⟨S1x128, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x128, .f32⟩
  | .hbm, ⟨22, _⟩ => ⟨S16384x128, .f32⟩
  | .hbm, ⟨23, _⟩ => ⟨S2048x128, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x128, .f32⟩
  | .hbm, ⟨33, _⟩ => ⟨S2048x128, .f32⟩
  | .hbm, ⟨34, _⟩ => ⟨S128x2048, .f32⟩
  | .hbm, ⟨35, _⟩ => ⟨S16384x2048, .f32⟩
  | .hbm, ⟨36, _⟩ => ⟨S_, .f32⟩
  | .hbm, ⟨37, _⟩ => ⟨S16384, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S16384x1, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S16384x2048, .f32⟩
  | .hbm, ⟨49, _⟩ => ⟨S16384x2048, .f32⟩
  | .hbm, ⟨50, _⟩ => ⟨S16384x128, .f32⟩
  | .hbm, ⟨51, _⟩ => ⟨S16384x256, .f32⟩
  | .hbm, ⟨52, _⟩ => ⟨S256x128, .f32⟩
  | .hbm, ⟨53, _⟩ => ⟨S16384x128, .f32⟩
  | .hbm, ⟨54, _⟩ => ⟨S1x128, .f32⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S_, .f32⟩
  | .hbm, ⟨59, _⟩ => ⟨S16384x128, .f32⟩
  | .hbm, ⟨60, _⟩ => ⟨S16384x128, .f32⟩
  | .hbm, ⟨61, _⟩ => ⟨S16384x128, .f32⟩
  | .hbm, ⟨62, _⟩ => ⟨S16384x128, .f32⟩
  | .hbm, ⟨63, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_call2_v2 : Ref sig .tc := ⟨.hbm, 26, rfl⟩
abbrev main_v9 : Ref sig .tc := ⟨.hbm, 27, rfl⟩
abbrev main_cst_0 : Ref sig .tc := ⟨.hbm, 28, rfl⟩
abbrev main_call3_v0 : Ref sig .tc := ⟨.hbm, 29, rfl⟩
abbrev main_call3_v1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  reducesTo_S2048x128_S2048_d1 : S2048x128.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  transposes_S2048x128_S128x2048_1_0 : S2048x128.Transposes [1, 0] S128x2048
  reducesTo_S16384x2048_S16384_d1 : S16384x2048.ReducesTo [1] S16384
  bcast_S_S16384 : S_.BroadcastsInDim S16384 (![] : Fin 0 → Fin S16384.rank)
  bcast_S16384x1_S16384x2048_0_1 : S16384x1.BroadcastsInDim S16384x2048 (![0, 1] : Fin 2 → Fin S16384x2048.rank)
  concatenates_S16384x128_S16384x128_S16384x256_d1 : Shape.Concatenates [S16384x128, S16384x128] S16384x256 1
  transposes_S128x256_S256x128_1_0 : S128x256.Transposes [1, 0] S256x128
  bcast_S_S16384x128 : S_.BroadcastsInDim S16384x128 (![] : Fin 0 → Fin S16384x128.rank)
  dot_S16384x128_S128x128_S16384x128_1_0_0_1_n_n_wf : DotDims.WF S16384x128 S128x128 S16384x128 [1] [0] [0] [1] [] []
  dot_S16384x128_S128x2048_S16384x2048_1_0_0_1_n_n_wf : DotDims.WF S16384x128 S128x2048 S16384x2048 [1] [0] [0] [1] [] []
  dot_S16384x2048_S2048x128_S16384x128_1_0_0_1_n_n_wf : DotDims.WF S16384x2048 S2048x128 S16384x128 [1] [0] [0] [1] [] []
  dot_S16384x256_S256x128_S16384x128_1_0_0_1_n_n_wf : DotDims.WF S16384x256 S256x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x2048_S16384x2048_1_0_0_1_n_n : DotDims S16384x128 S128x2048 S16384x2048 where
  lhsContracting := [1]
  rhsContracting := [0]
  lhsNonContracting := [0]
  rhsNonContracting := [1]
  lhsBatch := []
  rhsBatch := []
  wf := dot_S16384x128_S128x2048_S16384x2048_1_0_0_1_n_n_wf
def dot_S16384x2048_S2048x128_S16384x128_1_0_0_1_n_n : DotDims S16384x2048 S2048x128 S16384x128 where
  lhsContracting := [1]
  rhsContracting := [0]
  lhsNonContracting := [0]
  rhsNonContracting := [1]
  lhsBatch := []
  rhsBatch := []
  wf := dot_S16384x2048_S2048x128_S16384x128_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.Spec.lean ====
/-
  The mathematics both programs compute, for ONE query row, over the extended reals.

  A query row x (128 numbers) is sent through an affine map, y = x·Wᵀ + b, and scaled to unit length, the length
  clipped below by a small positive constant ε.  Each of the 2048 rows of the memory index is scaled to unit length
  the same way.  The row's score against memory row r is the dot product of the two unit vectors; the 2048 scores go
  through a softmax (the row's largest score subtracted before the exponential); the memory read is the
  softmax-weighted sum of the memory bank's rows.  A gate tanh([read, x]·W₂ᵀ + b₂), one number per output column, then
  mixes the row and the read: (1 - g)·x + g·read.  The results are the mix and the read.

  The constants are kept as the words the programs print; both programs print the same ones.
-/
import Idealize.ShloMosaic.PureOps.Ideal

noncomputable section

namespace GatedRead

open Idealize.ShloMosaic

/-- The word both programs print for zero. -/
abbrev zeroW : EReal := Ideal.ofBits .f32 0x00000000#32
/-- The clip ε = f32(1e-8), as printed. -/
abbrev epsW : EReal := Ideal.ofBits .f32 0x322BCC77#32
/-- Minus infinity, the start of a running maximum, as printed. -/
abbrev ninfW : EReal := Ideal.ofBits .f32 0xFF800000#32
/-- One, as printed. -/
abbrev oneW : EReal := Ideal.ofBits .f32 0x3F800000#32

/-- y = x·Wᵀ + b at column j: the sum over k of x k · W j k, plus b j. -/
def affine (W : Fin 128 → Fin 128 → EReal) (b : Fin 128 → EReal) (x : Fin 128 → EReal) (j : Fin 128) : EReal :=
  (∑ k : Fin 128, x k * W j k) + b j

/-- The Euclidean length of a vector, clipped below by ε. -/
def clipNorm (v : Fin 128 → EReal) : EReal :=
  max epsW (Ideal.sqrt (∑ k : Fin 128, v k * v k))

/-- A vector over its clipped length. -/
def unit (v : Fin 128 → EReal) (k : Fin 128) : EReal := Ideal.div (v k) (clipNorm v)

/-- The score of a unit vector u against row r of the normalized memory index. -/
def score (miN : Fin 2048 → Fin 128 → EReal) (u : Fin 128 → EReal) (r : Fin 2048) : EReal :=
  ∑ k : Fin 128, u k * miN r k

/-- The largest of 2048 numbers, as a running maximum started at minus infinity and compared with it once more. -/
def top (s : Fin 2048 → EReal) : EReal :=
  max ninfW ((Finset.univ : Finset (Fin 2048)).fold max ninfW s)

/-- The exponential of a score less the largest. -/
def expShift (s : Fin 2048 → EReal) (r : Fin 2048) : EReal := Ideal.exp (s r - top s)

/-- Softmax of 2048 numbers. -/
def softmax (s : Fin 2048 → EReal) (r : Fin 2048) : EReal :=
  Ideal.div (expShift s r) (∑ r' : Fin 2048, expShift s r')

/-- The weighted sum of the memory bank's rows. -/
def readMem (mw : Fin 2048 → Fin 128 → EReal) (a : Fin 2048 → EReal) (j : Fin 128) : EReal :=
  ∑ r : Fin 2048, a r * mw r j

/-- The memory read of one query row. -/
def memRow (W : Fin 128 → Fin 128 → EReal) (b : Fin 128 → EReal) (miN : Fin 2048 → Fin 128 → EReal)
    (mw : Fin 2048 → Fin 128 → EReal) (x : Fin 128 → EReal) : Fin 128 → EReal :=
  readMem mw (softmax (score miN (unit (affine W b x))))

/-- The read and the row side by side: 256 numbers. -/
def joined (me x : Fin 128 → EReal) (c : Fin 256) : EReal :=
  if h : c.val < 128 then me ⟨c.val, h⟩ else x ⟨c.val - 128, by have := c.isLt; omega⟩

/-- The gate at column j. -/
def gate (W2 : Fin 128 → Fin 256 → EReal) (b2 : Fin 128 → EReal) (me x : Fin 128 → EReal) (j : Fin 128) : EReal :=
  Ideal.tanh ((∑ c : Fin 256, joined me x c * W2 j c) + b2 j)

/-- The gated mix of the row and its read at column j. -/
def mix (W2 : Fin 128 → Fin 256 → EReal) (b2 : Fin 128 → EReal) (me x : Fin 128 → EReal) (j : Fin 128) : EReal :=
  (oneW - gate W2 b2 me x j) * x j + gate W2 b2 me x j * me j

/-- The first result for one query row. -/
def outRow (W : Fin 128 → Fin 128 → EReal) (b : Fin 128 → EReal) (miN : Fin 2048 → Fin 128 → EReal)
    (mw : Fin 2048 → Fin 128 → EReal) (W2 : Fin 128 → Fin 256 → EReal) (b2 : Fin 128 → EReal)
    (x : Fin 128 → EReal) : Fin 128 → EReal :=
  mix W2 b2 (memRow W b miN mw x) x

/-- The memory index scaled row by row to unit length. -/
def unitRows (mi : Fin 2048 → Fin 128 → EReal) (r : Fin 2048) : Fin 128 → EReal := unit (mi r)

/-- The clipped length does not depend on the order of the comparison, nor on a zero added to the sum of squares. -/
theorem clipNorm_eq (v : Fin 128 → EReal) :
    max (Ideal.sqrt (∑ k : Fin 128, v k * v k)) epsW = clipNorm v := max_comm _ _

theorem zeroW_eq : zeroW = 0 := by simp [zeroW, Ideal.ofBits, Ideal.ieee]

theorem clipNorm_eq' (v : Fin 128 → EReal) :
    max epsW (Ideal.sqrt (zeroW + ∑ k : Fin 128, v k * v k)) = clipNorm v := by
  rw [zeroW_eq, zero_add]; rfl

end GatedRead

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Stages.lean ====
/-
  The kernel body's arithmetic, stage by stage, read at an index.

  The body works on a block of 1024 query rows.  Each stage below is one step of the row computation applied to the
  whole block: the affine map, the scaling to unit length, the scores against the (already normalized and transposed)
  memory index, the softmax along the 2048 scores, the weighted read of the memory bank, the join with the rows, and
  the gated mix.  Every stage acts on each row by itself, so read at row p and a column it is the one-row formula of
  the specification applied to row p of its operand.  A change of float format is the identity on extended reals, a
  matrix product into a zero accumulator is the plain sum over the contracted axis, and a sum or a maximum along
  axis 1 is the sum or the running maximum over that row's entries.
-/
import proofs.«160925_j54520314856137_1_alg».proof.KernelIdeal
import proofs.«160925_j54520314856137_1_alg».proof.Proof.Gen.KernelIdeal
import proofs.«160925_j54520314856137_1_alg».proof.Proof.Spec
import proofs.«160925_j54520314856137_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Stage

open Cert.KernelIdeal Cert.KernelIdeal.Gen Idealize.ShloMosaic Idealize.ShloMosaic.ValueIdx

/-! ## Generic readings -/

/-- A matrix product into the zero accumulator, at (p, q): the sum over k of l(p,k)·r(k,q). -/
theorem matmul_zero_apply {R K C : Nat} {φ₁ φ₂ : FTy}
    (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ φ₁) (r : FVec Ideal ⟨2, ![K, C]⟩ φ₂) (p : Fin R) (q : Fin C) :
    matmul d none l r (constant ⟨2, ![R, C]⟩ .f32 0x00000000#32) (ix2 p q) = ∑ k : Fin K, l (ix2 p k) * r (ix2 k q) :=
  (Ideal.matmul_constant_zero_apply d none l r (ix2 p q)).trans (PlainDot.sum_eq d hlb hln hlc hrb hrn hrc l r p q)

/-- The index a reduction along axis 1 of a rank-2 array inserts into: (p, k). -/
theorem lift_axis1 {R C : Nat} (h : Shape.Reduces ⟨2, ![R, C]⟩ [1] ⟨1, ![R]⟩) (p : Fin R) (k : Fin C) :
    h.lift (ix1 p) k = ix2 p k := by
  funext a
  apply Fin.ext
  match a with
  | ⟨0, _⟩ => rfl
  | ⟨1, _⟩ => rfl

/-- A sum along axis 1, at row p: the sum of that row's entries. -/
theorem rowSum_apply {R C : Nat} (src : FVec Ideal ⟨2, ![R, C]⟩ .f32)
    (h : Shape.Reduces ⟨2, ![R, C]⟩ [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) := by
  refine (Ideal.multiReduction_add_single src 0x00000000#32 h hφ hacc (ix1 p)).trans ?_
  exact Finset.sum_congr rfl fun k _ => congrArg src (lift_axis1 h p k)

/-- A maximum along axis 1, at row p: the running maximum of that row's entries from minus infinity. -/
theorem rowMax_apply {R C : Nat} (src : FVec Ideal ⟨2, ![R, C]⟩ .f32)
    (h : Shape.Reduces ⟨2, ![R, C]⟩ [1] ⟨1, ![R]⟩) (hφ : FKind.Formats .f32)
    (hacc : (0xFF800000#32 : BitVec 32) = FKind.maximumf.neutral .f32 hφ) (p : Fin R) :
    multiReduction .maximumf [1] ⟨1, ![R]⟩ src 0xFF800000#32 h hφ hacc (ix1 p)
      = (Finset.univ : Finset (Fin C)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_axis1 h p k)
  rw [e]
  rfl

/-- A length-R vector viewed as a column [R, 1], at (p, 0). -/
theorem column_apply {R : Nat} {α : Type} (v : (⟨1, ![R]⟩ : Shape).Idx → α)
    (h : (⟨1, ![R]⟩ : Shape).ShapeCasts ⟨2, ![R, 1]⟩) (p : Fin R) (z : Fin 1) :
    shapeCast ⟨2, ![R, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column [R, 1] spread over C columns, at (p, q): the column's entry at row p. -/
theorem spread_apply {R C : Nat} {α : Type} (v : (⟨2, ![R, 1]⟩ : Shape).Idx → α)
    (h : (⟨2, ![R, 1]⟩ : Shape).Broadcasts ⟨2, ![R, C]⟩) (p : Fin R) (q : Fin C) :
    broadcastTo ⟨2, ![R, C]⟩ v h (ix2 p q) = v (ix2 p (0 : Fin 1)) := by
  refine broadcastTo_apply v h (ix2 p q) (ix2 p (0 : Fin 1)) fun ax => ?_
  match ax with
  | ⟨0, _⟩ =>
    show p.val = if R = 1 then 0 else p.val
    split
    · have := p.isLt; omega
    · rfl
  | ⟨1, _⟩ => rfl

end Cert.KernelIdeal.Stage

end
-- ==== Proof.KernelRow.lean ====
/-
  The kernel body's two stored values, read at row p and column j of a block of 1024 query rows.

  The stored values are compositions of the stages below; each stage acts on every row by itself.  Written over the
  block's row x = (block p ·), the transposed weights, the normalized transposed memory index and the memory bank as
  the body loads them, the second stored value is the specification's memory read of x and the first is its gated
  mix with x.
-/
import proofs.«160925_j54520314856137_1_alg».proof.Proof.Gen.KernelIdeal.Skeleton
import proofs.«160925_j54520314856137_1_alg».proof.Proof.Stages

noncomputable section

namespace Cert.KernelIdeal.Stage

open Cert.KernelIdeal Cert.KernelIdeal.Gen Idealize.ShloMosaic Idealize.ShloMosaic.ValueIdx

/-! ## The stages, as the body spells them -/

/-- The affine map on a block of rows: the block times the transposed weights, plus the bias row. -/
def lin (v0 : FVec Ideal S1024x128 .f32) (v1 : FVec Ideal S128x128 .f32) (v3 : FVec Ideal S1x128 .f32) : FVec Ideal S1024x128 .f32 :=
  addf (matmul dot_S1024x128_S128x128_S1024x128_1_0_0_1_n_n none (truncf .bf16 v0 bitsLt_bf16_f32)
      (truncf .bf16 (shapeCast S128x128 v1 shapeCasts_S128x128_S128x128) bitsLt_bf16_f32) (constant S1024x128 .f32 0x00000000#32))
    (broadcastTo S1024x128 (shapeCast S1x128 v3 shapeCasts_S1x128_S1x128) broadcasts_S1x128_S1024x128)

/-- Every row over its clipped length. -/
def unitize (y : FVec Ideal S1024x128 .f32) : FVec Ideal S1024x128 .f32 :=
  divf y (broadcastTo S1024x128
    (maximumf (sqrt (shapeCast S1024x1 (multiReduction .add [1] S1024 (mulf y y) 0x00000000#32 reduces_S1024x128_S1024 (.inl rfl) rfl) shapeCasts_S1024_S1024x1))
      (broadcast S1024x1 (Scalar.ofBits .f32 0x322BCC77#32)))
    broadcasts_S1024x1_S1024x128)

/-- The scores of every row against the normalized, transposed memory index. -/
def scores (u : FVec Ideal S1024x128 .f32) (v18 : FVec Ideal S128x2048 .f32) : FVec Ideal S1024x2048 .f32 :=
  matmul dot_S1024x128_S128x2048_S1024x2048_1_0_0_1_n_n none (truncf .bf16 u bitsLt_bf16_f32)
    (truncf .bf16 (shapeCast S128x2048 v18 shapeCasts_S128x2048_S128x2048) bitsLt_bf16_f32) (constant S1024x2048 .f32 0x00000000#32)

/-- Every row's largest score. -/
def tops (s : FVec Ideal S1024x2048 .f32) : FVec Ideal S1024 .f32 :=
  maximumf (broadcast S1024 (Scalar.ofBits .f32 0xFF800000#32))
    (multiReduction .maximumf [1] S1024 s 0xFF800000#32 reduces_S1024x2048_S1024 (.inl rfl) rfl)

/-- The exponential of every score less its row's largest. -/
def expShift (s : FVec Ideal S1024x2048 .f32) : FVec Ideal S1024x2048 .f32 :=
  exp (subf s (broadcastTo S1024x2048 (shapeCast S1024x1 (tops s) shapeCasts_S1024_S1024x1) broadcasts_S1024x1_S1024x2048))

/-- Row-wise softmax. -/
def soft (s : FVec Ideal S1024x2048 .f32) : FVec Ideal S1024x2048 .f32 :=
  divf (expShift s) (broadcastTo S1024x2048
    (shapeCast S1024x1 (multiReduction .add [1] S1024 (expShift s) 0x00000000#32 reduces_S1024x2048_S1024 (.inl rfl) rfl) shapeCasts_S1024_S1024x1)
    broadcasts_S1024x1_S1024x2048)

/-- The weights times the memory bank. -/
def readBank (a : FVec Ideal S1024x2048 .f32) (v34 : FVec Ideal S2048x128 .f32) : FVec Ideal S1024x128 .f32 :=
  matmul dot_S1024x2048_S2048x128_S1024x128_1_0_0_1_n_n none (truncf .bf16 a bitsLt_bf16_f32) (truncf .bf16 v34 bitsLt_bf16_f32)
    (constant S1024x128 .f32 0x00000000#32)

/-- The gate of every row: tanh of the joined block times the transposed gate weights, plus the bias row. -/
def gates (jn : FVec Ideal S1024x256 .f32) (v39 : FVec Ideal S256x128 .f32) (v41 : FVec Ideal S1x128 .f32) : FVec Ideal S1024x128 .f32 :=
  tanh (addf (matmul dot_S1024x256_S256x128_S1024x128_1_0_0_1_n_n none (truncf .bf16 jn bitsLt_bf16_f32)
      (truncf .bf16 (shapeCast S256x128 v39 shapeCasts_S256x128_S256x128) bitsLt_bf16_f32) (constant S1024x128 .f32 0x00000000#32))
    (broadcastTo S1024x128 (shapeCast S1x128 v41 shapeCasts_S1x128_S1x128) broadcasts_S1x128_S1024x128))

/-- The body's second stored value is the stages composed. -/
theorem pay2_eq (v0 : FVec Ideal S1024x128 .f32) (v1 : FVec Ideal S128x128 .f32) (v3 : FVec Ideal S1x128 .f32)
    (v18 : FVec Ideal S128x2048 .f32) (v34 : FVec Ideal S2048x128 .f32) :
    k0_pay2 (F := Ideal) v0 v1 v3 v18 v34 = readBank (soft (scores (unitize (lin v0 v1 v3)) v18)) v34 := rfl

/-- The body's first stored value is the gated mix of the block and the read. -/
theorem pay1_eq (v0 : FVec Ideal S1024x128 .f32) (v37 : FVec Ideal S1024x128 .f32) (v38 : FVec Ideal S1024x256 .f32)
    (v39 : FVec Ideal S256x128 .f32) (v41 : FVec Ideal S1x128 .f32) :
    k0_pay1 (F := Ideal) v0 v37 v38 v39 v41
      = addf (mulf (subf (broadcast S1024x128 (Scalar.ofBits .f32 0x3F800000#32)) (gates v38 v39 v41)) v0) (mulf (gates v38 v39 v41) v37) := rfl

/-! ## Each stage at row p -/

theorem lin_apply (v0 : FVec Ideal S1024x128 .f32) (v1 : FVec Ideal S128x128 .f32) (v3 : FVec Ideal S1x128 .f32)
    (p : Fin 1024) (j : Fin 128) :
    lin v0 v1 v3 (ix2 p j)
      = GatedRead.affine (fun j k => v1 (ix2 k j)) (fun j => v3 (ix2 (0 : Fin 1) j)) (fun k => v0 (ix2 p k)) j := by
  unfold lin GatedRead.affine
  rw [addf_apply]
  refine congrArg₂ (· + ·) ?_ ?_
  · rw [shapeCast_self]
    exact matmul_zero_apply dot_S1024x128_S128x128_S1024x128_1_0_0_1_n_n rfl rfl rfl rfl rfl rfl _ _ p j
  · rw [shapeCast_self]
    exact broadcastTo_1b_ab_apply v3 broadcasts_S1x128_S1024x128 p j

/-- The clipped length of row p, as the body computes it. -/
theorem unitize_apply (y : FVec Ideal S1024x128 .f32) (p : Fin 1024) (j : Fin 128) :
    unitize y (ix2 p j) = GatedRead.unit (fun k => y (ix2 p k)) j := by
  unfold unitize GatedRead.unit
  rw [divf_apply]
  refine congrArg (Ideal.div (y (ix2 p j))) ?_
  rw [spread_apply, maximumf_apply]
  refine Eq.trans ?_ (GatedRead.clipNorm_eq _)
  refine congrArg₂ max ?_ rfl
  show Ideal.sqrt (shapeCast S1024x1 _ shapeCasts_S1024_S1024x1 (ix2 p (0 : Fin 1))) = _
  rw [column_apply]
  exact congrArg Ideal.sqrt (rowSum_apply (mulf y y) _ _ _ p)

theorem scores_apply (u : FVec Ideal S1024x128 .f32) (v18 : FVec Ideal S128x2048 .f32) (p : Fin 1024) (r : Fin 2048) :
    scores u v18 (ix2 p r) = GatedRead.score (fun r k => v18 (ix2 k r)) (fun k => u (ix2 p k)) r := by
  unfold scores GatedRead.score
  rw [shapeCast_self]
  exact matmul_zero_apply dot_S1024x128_S128x2048_S1024x2048_1_0_0_1_n_n rfl rfl rfl rfl rfl rfl _ _ p r

theorem tops_apply (s : FVec Ideal S1024x2048 .f32) (p : Fin 1024) :
    tops s (ix1 p) = GatedRead.top (fun r => s (ix2 p r)) := by
  unfold tops GatedRead.top
  rw [maximumf_apply]
  exact congrArg (max GatedRead.ninfW) (rowMax_apply s _ _ _ p)

theorem expShift_apply (s : FVec Ideal S1024x2048 .f32) (p : Fin 1024) (r : Fin 2048) :
    expShift s (ix2 p r) = GatedRead.expShift (fun r => s (ix2 p r)) r := by
  unfold expShift GatedRead.expShift
  show Ideal.exp (s (ix2 p r) - broadcastTo S1024x2048 _ broadcasts_S1024x1_S1024x2048 (ix2 p r)) = _
  rw [spread_apply, column_apply, tops_apply]

theorem soft_apply (s : FVec Ideal S1024x2048 .f32) (p : Fin 1024) (r : Fin 2048) :
    soft s (ix2 p r) = GatedRead.softmax (fun r => s (ix2 p r)) r := by
  unfold soft GatedRead.softmax
  rw [divf_apply, spread_apply, column_apply]
  refine congrArg₂ Ideal.div (expShift_apply s p r) ?_
  refine (rowSum_apply (expShift s) _ _ _ p).trans ?_
  exact Finset.sum_congr rfl fun r' _ => expShift_apply s p r'

theorem readBank_apply (a : FVec Ideal S1024x2048 .f32) (v34 : FVec Ideal S2048x128 .f32) (p : Fin 1024) (j : Fin 128) :
    readBank a v34 (ix2 p j) = GatedRead.readMem (fun r j => v34 (ix2 r j)) (fun r => a (ix2 p r)) j := by
  unfold readBank GatedRead.readMem
  exact matmul_zero_apply dot_S1024x2048_S2048x128_S1024x128_1_0_0_1_n_n rfl rfl rfl rfl rfl rfl _ _ p j

/-- The body's second stored value at (p, j): the memory read of row p. -/
theorem pay2_apply (v0 : FVec Ideal S1024x128 .f32) (v1 : FVec Ideal S128x128 .f32) (v3 : FVec Ideal S1x128 .f32)
    (v18 : FVec Ideal S128x2048 .f32) (v34 : FVec Ideal S2048x128 .f32) (p : Fin 1024) (j : Fin 128) :
    k0_pay2 (F := Ideal) v0 v1 v3 v18 v34 (ix2 p j)
      = GatedRead.memRow (fun j k => v1 (ix2 k j)) (fun j => v3 (ix2 (0 : Fin 1) j)) (fun r k => v18 (ix2 k r))
          (fun r j => v34 (ix2 r j)) (fun k => v0 (ix2 p k)) j := by
  rw [pay2_eq, readBank_apply]
  unfold GatedRead.memRow
  refine congrArg (fun a => GatedRead.readMem _ a j) (funext fun r => ?_)
  rw [soft_apply]
  refine congrArg (fun s => GatedRead.softmax s r) (funext fun r' => ?_)
  rw [scores_apply]
  refine congrArg (fun u => GatedRead.score _ u r') (funext fun k => ?_)
  rw [unitize_apply]
  exact congrArg (fun y => GatedRead.unit y k) (funext fun k' => lin_apply v0 v1 v3 p k')

/-! ## The join, the gate and the mix -/

/-- Two blocks of 128 columns side by side, at (p, c): the left block for c below 128, else the right block at c - 128. -/
theorem join_apply {R : Nat} {α : Type} (a b : (⟨2, ![R, 128]⟩ : Shape).Idx → α)
    (h : Shape.Concatenates [⟨2, ![R, 128]⟩, ⟨2, ![R, 128]⟩] ⟨2, ![R, 256]⟩ 1) (p : Fin R) (c : Fin 256) :
    concatenate ⟨2, ![R, 256]⟩ 1 [⟨⟨2, ![R, 128]⟩, a⟩, ⟨⟨2, ![R, 128]⟩, b⟩] h (ix2 p c)
      = if hc : c.val < 128 then a (ix2 p ⟨c.val, hc⟩) else b (ix2 p ⟨c.val - 128, by have := c.isLt; omega⟩) := by
  split
  · next hc =>
    refine concatenate_pair_apply_left (1 : Fin 2) a b h (ix2 p c) rfl (ix2 p ⟨c.val, hc⟩) fun ax => ?_
    match ax with
    | ⟨0, _⟩ => rfl
    | ⟨1, _⟩ => rfl
  · next hc =>
    refine concatenate_pair_apply_right (1 : Fin 2) a b h (ix2 p c) rfl rfl (ix2 p ⟨c.val - 128, by have := c.isLt; omega⟩)
      (fun ax hax => ?_) ?_
    · match ax with
      | ⟨0, _⟩ => rfl
      | ⟨1, _⟩ => exact absurd rfl hax
    · show (c.val - 128) + 128 = c.val
      omega

/-- The body's joined block is the read and the rows side by side. -/
theorem pay3_eq (v0 : FVec Ideal S1024x128 .f32) (v1 : FVec Ideal S128x128 .f32) (v3 : FVec Ideal S1x128 .f32)
    (v18 : FVec Ideal S128x2048 .f32) (v34 : FVec Ideal S2048x128 .f32) :
    k0_pay3 (F := Ideal) v0 v1 v3 v18 v34
      = concatenate S1024x256 1 [⟨S1024x128, k0_pay2 (F := Ideal) v0 v1 v3 v18 v34⟩, ⟨S1024x128, v0⟩] concatenates_S1024x128_S1024x128_S1024x256_d1 := rfl

theorem gates_apply (jn : FVec Ideal S1024x256 .f32) (v39 : FVec Ideal S256x128 .f32) (v41 : FVec Ideal S1x128 .f32)
    (p : Fin 1024) (j : Fin 128) :
    gates jn v39 v41 (ix2 p j)
      = Ideal.tanh ((∑ c : Fin 256, jn (ix2 p c) * v39 (ix2 c j)) + v41 (ix2 (0 : Fin 1) j)) := by
  unfold gates
  refine congrArg Ideal.tanh (congrArg₂ (· + ·) ?_ ?_)
  · rw [shapeCast_self]
    exact matmul_zero_apply dot_S1024x256_S256x128_S1024x128_1_0_0_1_n_n rfl rfl rfl rfl rfl rfl _ _ p j
  · rw [shapeCast_self]
    exact broadcastTo_1b_ab_apply v41 broadcasts_S1x128_S1024x128 p j

/-- The body's first stored value at (p, j): the gated mix of row p and its memory read. -/
theorem pay1_apply (v0 : FVec Ideal S1024x128 .f32) (v1 : FVec Ideal S128x128 .f32) (v3 : FVec Ideal S1x128 .f32)
    (v18 : FVec Ideal S128x2048 .f32) (v34 : FVec Ideal S2048x128 .f32) (v39 : FVec Ideal S256x128 .f32)
    (v41 : FVec Ideal S1x128 .f32) (p : Fin 1024) (j : Fin 128) :
    k0_pay1 (F := Ideal) v0 (k0_pay2 (F := Ideal) v0 v1 v3 v18 v34) (k0_pay3 (F := Ideal) v0 v1 v3 v18 v34) v39 v41 (ix2 p j)
      = GatedRead.outRow (fun j k => v1 (ix2 k j)) (fun j => v3 (ix2 (0 : Fin 1) j)) (fun r k => v18 (ix2 k r))
          (fun r j => v34 (ix2 r j)) (fun j c => v39 (ix2 c j)) (fun j => v41 (ix2 (0 : Fin 1) j)) (fun k => v0 (ix2 p k)) j := by
  have hj : ∀ c : Fin 256, k0_pay3 (F := Ideal) v0 v1 v3 v18 v34 (ix2 p c)
      = GatedRead.joined (GatedRead.memRow (fun j k => v1 (ix2 k j)) (fun j => v3 (ix2 (0 : Fin 1) j)) (fun r k => v18 (ix2 k r))
          (fun r j => v34 (ix2 r j)) (fun k => v0 (ix2 p k))) (fun k => v0 (ix2 p k)) c := fun c => by
    rw [pay3_eq]
    refine (join_apply (k0_pay2 (F := Ideal) v0 v1 v3 v18 v34) v0 concatenates_S1024x128_S1024x128_S1024x256_d1 p c).trans ?_
    unfold GatedRead.joined
    split
    · exact pay2_apply v0 v1 v3 v18 v34 p _
    · rfl
  have hg : gates (k0_pay3 (F := Ideal) v0 v1 v3 v18 v34) v39 v41 (ix2 p j)
      = GatedRead.gate (fun j c => v39 (ix2 c j)) (fun j => v41 (ix2 (0 : Fin 1) j))
          (GatedRead.memRow (fun j k => v1 (ix2 k j)) (fun j => v3 (ix2 (0 : Fin 1) j)) (fun r k => v18 (ix2 k r))
            (fun r j => v34 (ix2 r j)) (fun k => v0 (ix2 p k))) (fun k => v0 (ix2 p k)) j := by
    rw [gates_apply]
    unfold GatedRead.gate
    refine congrArg Ideal.tanh (congrArg (· + v41 (ix2 (0 : Fin 1) j)) ?_)
    exact Finset.sum_congr rfl fun c _ => congrArg (· * v39 (ix2 c j)) (hj c)
  rw [pay1_eq]
  show (GatedRead.oneW - gates _ v39 v41 (ix2 p j)) * v0 (ix2 p j) + gates _ v39 v41 (ix2 p j) * k0_pay2 (F := Ideal) v0 v1 v3 v18 v34 (ix2 p j) = _
  rw [hg, pay2_apply]
  rfl

end Cert.KernelIdeal.Stage

end
-- ==== Proof.SpecArr.lean ====
/-
  The two results as whole arrays.

  Entry (p, j) of either result depends on row p of the query array alone, and on all of the weights, the memory index
  and the memory bank: it is the one-row formula of the specification at that row.  The arrays are written over the
  extents the programs have: 16384 query rows of 128 numbers, 128 by 128 and 128 by 256 weights with biases of 128,
  and 2048 memory rows of 128.
-/
import proofs.«160925_j54520314856137_1_alg».proof.Proof.Spec
import Idealize.ShloMosaic.Lib.ValueIdx

noncomputable section

namespace GatedRead

open Idealize.ShloMosaic Idealize.ShloMosaic.ValueIdx

/-- The weights W[j, k], the bias, the memory index and the bank, as functions of their coordinates. -/
abbrev mat {A B : Nat} (a : (⟨2, ![A, B]⟩ : Shape).Idx → EReal) : Fin A → Fin B → EReal := fun r k => a (ix2 r k)
abbrev vec {A : Nat} (a : (⟨1, ![A]⟩ : Shape).Idx → EReal) : Fin A → EReal := fun j => a (ix1 j)

/-- Row p of the query array. -/
abbrev rowOf (a0 : (⟨2, ![16384, 128]⟩ : Shape).Idx → EReal) (p : Fin 16384) : Fin 128 → EReal := fun k => a0 (ix2 p k)

/-- The second result: every query row's memory read. -/
def memArr (a0 : (⟨2, ![16384, 128]⟩ : Shape).Idx → EReal) (a1 : (⟨2, ![128, 128]⟩ : Shape).Idx → EReal)
    (a2 : (⟨1, ![128]⟩ : Shape).Idx → EReal) (a3 a4 : (⟨2, ![2048, 128]⟩ : Shape).Idx → EReal) :
    (⟨2, ![16384, 128]⟩ : Shape).Idx → EReal :=
  fun i => memRow (mat a1) (vec a2) (unitRows (mat a3)) (mat a4) (rowOf a0 ⟨(i 0).val, (i 0).isLt⟩) ⟨(i 1).val, (i 1).isLt⟩

/-- The first result: every query row's gated mix with its memory read. -/
def outArr (a0 : (⟨2, ![16384, 128]⟩ : Shape).Idx → EReal) (a1 : (⟨2, ![128, 128]⟩ : Shape).Idx → EReal)
    (a2 : (⟨1, ![128]⟩ : Shape).Idx → EReal) (a3 a4 : (⟨2, ![2048, 128]⟩ : Shape).Idx → EReal)
    (a5 : (⟨2, ![128, 256]⟩ : Shape).Idx → EReal) (a6 : (⟨1, ![128]⟩ : Shape).Idx → EReal) :
    (⟨2, ![16384, 128]⟩ : Shape).Idx → EReal :=
  fun i => outRow (mat a1) (vec a2) (unitRows (mat a3)) (mat a4) (mat a5) (vec a6) (rowOf a0 ⟨(i 0).val, (i 0).isLt⟩) ⟨(i 1).val, (i 1).isLt⟩

theorem memArr_ix2 (a0 a1 a2 a3 a4) (p : Fin 16384) (j : Fin 128) :
    memArr a0 a1 a2 a3 a4 (ix2 p j) = memRow (mat a1) (vec a2) (unitRows (mat a3)) (mat a4) (rowOf a0 p) j := rfl

theorem outArr_ix2 (a0 a1 a2 a3 a4 a5 a6) (p : Fin 16384) (j : Fin 128) :
    outArr a0 a1 a2 a3 a4 a5 a6 (ix2 p j)
      = outRow (mat a1) (vec a2) (unitRows (mat a3)) (mat a4) (mat a5) (vec a6) (rowOf a0 p) j := rfl

end GatedRead

end
-- ==== Proof.KernelHost.lean ====
/-
  What the kernel's region finds in the arrays the host prepares before it.

  Before the region the host transposes the two weight matrices, views each bias as one row, and scales every row of
  the memory index to unit length (its length clipped below by ε) before transposing it.  So, read at an index: the
  transposed weights at (k, j) are the weights at (j, k); a bias row at (0, j) is the bias at j; and the prepared
  memory index at (k, r) is entry k of memory row r over that row's clipped length.  That last array is produced by
  the same operations, in the same order, as the reference's own normalized and transposed memory index.
-/
import proofs.«160925_j54520314856137_1_alg».proof.Proof.Gen.KernelIdeal.Frame
import proofs.«160925_j54520314856137_1_alg».proof.Proof.RefRead
import proofs.«160925_j54520314856137_1_alg».proof.Proof.SpecArr
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The first weight matrix, transposed. -/
theorem V_v0 (c : Dev nD) :
    (V m c main_v0 : S128x128.Idx → Elt F .f32)
      = transpose S128x128 [1, 0] (m ((c : Thread nD τ).loc main_arg1)) transposes_S128x128_S128x128_1_0 := by
  dsimp only [V]
  simp only [hostOps0, hostOps0_1, hostOps0_2, List.flatten_cons, List.flatten_nil, List.append_nil, List.cons_append, List.nil_append]
  after_results

/-- The gate's weight matrix, transposed. -/
theorem V_v1 (c : Dev nD) :
    (V m c main_v1 : S256x128.Idx → Elt F .f32)
      = transpose S256x128 [1, 0] (m ((c : Thread nD τ).loc main_arg5)) transposes_S128x256_S256x128_1_0 := by
  dsimp only [V]
  simp only [hostOps0, hostOps0_1, hostOps0_2, List.flatten_cons, List.flatten_nil, List.append_nil, List.cons_append, List.nil_append]
  after_results

/-- The first bias as one row. -/
theorem V_v2 (c : Dev nD) :
    (V m c main_v2 : S1x128.Idx → Elt F .f32)
      = shapeCast S1x128 (m ((c : Thread nD τ).loc main_arg2)) shapeCasts_S128_S1x128 := by
  dsimp only [V]
  simp only [hostOps0, hostOps0_1, hostOps0_2, List.flatten_cons, List.flatten_nil, List.append_nil, List.cons_append, List.nil_append]
  after_results
  rfl

/-- The gate's bias as one row. -/
theorem V_v3 (c : Dev nD) :
    (V m c main_v3 : S1x128.Idx → Elt F .f32)
      = shapeCast S1x128 (m ((c : Thread nD τ).loc main_arg6)) shapeCasts_S128_S1x128 := by
  dsimp only [V]
  simp only [hostOps0, hostOps0_1, hostOps0_2, List.flatten_cons, List.flatten_nil, List.append_nil, List.cons_append, List.nil_append]
  after_results
  rfl

/-- The prepared memory index is the reference's normalized, transposed memory index of the same argument. -/
theorem V_v11 (c : Dev nD) :
    (V m c main_v11 : S128x2048.Idx → Elt F .f32)
      = Cert.ReferenceIdeal.ReadP.val_main_v13 (F := F) (m ((c : Thread nD τ).loc main_arg3)) := by
  dsimp only [V]
  simp only [hostOps0, hostOps0_1, hostOps0_2, List.flatten_cons, List.flatten_nil, List.append_nil, List.cons_append, List.nil_append]
  after_results
  rfl

end Cert.KernelIdeal.Host

end
-- ==== Proof.KernelArray.lean ====
/-
  From what each grid point writes back to the two result arrays.

  Grid point t (of 16) works on query rows 1024·t … 1024·t + 1023: its block of the query array is those rows, and
  every other window stages its whole array at every point.  What the point writes back to either result is
  therefore the specification's array read through rows 1024·t … of it; the sixteen blocks tile the 16384 rows, so
  after the run each result array is the specification's array.
-/
import proofs.«160925_j54520314856137_1_alg».proof.Proof.Gen.KernelIdeal.Value
import proofs.«160925_j54520314856137_1_alg».proof.Proof.KernelRow
import proofs.«160925_j54520314856137_1_alg».proof.Proof.KernelHost
import Idealize.ShloMosaic.Lib.Pipeline.Value
import Idealize.ShloMosaic.Lib.Tactic

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the query window and the two result windows are at block (t, 0), every
    other window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The query window's block at point t is rows 1024·t … of the query array. -/
theorem blk0_apply (c : Dev nD) (t : Fin cfg0.N) (p : Fin 1024) (k : Fin 128) (h : t.val * 1024 + p.val < 16384) :
    (iblk m c 0 t : FVec Ideal S1024x128 .f32) (ix2 p k)
      = (m ((c : Thread nD τ).loc main_arg0) : S16384x128.Idx → EReal) (ix2 ⟨t.val * 1024 + p.val, h⟩ k) := by
  obtain ⟨e00, e01, -⟩ := idx_facts t
  unfold iblk
  rw [View.read_apply]
  show (V m c main_arg0 : S16384x128.Idx → EReal) _ = _
  rw [V_main_arg0]
  refine congrArg (m ((c : Thread nD τ).loc main_arg0) : S16384x128.Idx → EReal) (funext fun a => Fin.ext ?_)
  match a with
  | ⟨0, _⟩ => show win0_0.index t (0 : Fin 2) * 1024 + 1 * p.val = t.val * 1024 + p.val; rw [e00]; omega
  | ⟨1, _⟩ => show win0_0.index t (1 : Fin 2) * 128 + 1 * k.val = k.val; rw [e01]; omega

/-- Window 1 stages its whole array at every point. -/
theorem blk1_apply (c : Dev nD) (t : Fin cfg0.N) (y : S128x128.Idx) :
    (iblk m c 1 t : FVec Ideal S128x128 .f32) y = (V m c main_v0 : S128x128.Idx → EReal) y := by
  obtain ⟨e00, e01, e10, e11, e20, e21, e30, e31, e40, e41, e50, e51, e60, e61, e70, e71, e80, e81⟩ := idx_facts t
  unfold iblk
  rw [View.read_apply]
  refine congrArg (V m c main_v0 : S128x128.Idx → EReal) (funext fun a => Fin.ext ?_)
  match a with
  | ⟨0, _⟩ => show win0_1.index t (0 : Fin 2) * 128 + 1 * (y 0).val = (y 0).val; rw [e10]; omega
  | ⟨1, _⟩ => show win0_1.index t (1 : Fin 2) * 128 + 1 * (y 1).val = (y 1).val; rw [e11]; omega

/-- Window 2 stages its whole array at every point. -/
theorem blk2_apply (c : Dev nD) (t : Fin cfg0.N) (y : S1x128.Idx) :
    (iblk m c 2 t : FVec Ideal S1x128 .f32) y = (V m c main_v2 : S1x128.Idx → EReal) y := by
  obtain ⟨e00, e01, e10, e11, e20, e21, e30, e31, e40, e41, e50, e51, e60, e61, e70, e71, e80, e81⟩ := idx_facts t
  unfold iblk
  rw [View.read_apply]
  refine congrArg (V m c main_v2 : S1x128.Idx → EReal) (funext fun a => Fin.ext ?_)
  match a with
  | ⟨0, _⟩ => show win0_2.index t (0 : Fin 2) * 1 + 1 * (y 0).val = (y 0).val; rw [e20]; omega
  | ⟨1, _⟩ => show win0_2.index t (1 : Fin 2) * 128 + 1 * (y 1).val = (y 1).val; rw [e21]; omega

/-- Window 3 stages its whole array at every point. -/
theorem blk3_apply (c : Dev nD) (t : Fin cfg0.N) (y : S128x2048.Idx) :
    (iblk m c 3 t : FVec Ideal S128x2048 .f32) y = (V m c main_v11 : S128x2048.Idx → EReal) y := by
  obtain ⟨e00, e01, e10, e11, e20, e21, e30, e31, e40, e41, e50, e51, e60, e61, e70, e71, e80, e81⟩ := idx_facts t
  unfold iblk
  rw [View.read_apply]
  refine congrArg (V m c main_v11 : S128x2048.Idx → EReal) (funext fun a => Fin.ext ?_)
  match a with
  | ⟨0, _⟩ => show win0_3.index t (0 : Fin 2) * 128 + 1 * (y 0).val = (y 0).val; rw [e30]; omega
  | ⟨1, _⟩ => show win0_3.index t (1 : Fin 2) * 2048 + 1 * (y 1).val = (y 1).val; rw [e31]; omega

/-- Window 4 stages its whole array at every point. -/
theorem blk4_apply (c : Dev nD) (t : Fin cfg0.N) (y : S2048x128.Idx) :
    (iblk m c 4 t : FVec Ideal S2048x128 .f32) y = (V m c main_arg4 : S2048x128.Idx → EReal) y := by
  obtain ⟨e00, e01, e10, e11, e20, e21, e30, e31, e40, e41, e50, e51, e60, e61, e70, e71, e80, e81⟩ := idx_facts t
  unfold iblk
  rw [View.read_apply]
  refine congrArg (V m c main_arg4 : S2048x128.Idx → EReal) (funext fun a => Fin.ext ?_)
  match a with
  | ⟨0, _⟩ => show win0_4.index t (0 : Fin 2) * 2048 + 1 * (y 0).val = (y 0).val; rw [e40]; omega
  | ⟨1, _⟩ => show win0_4.index t (1 : Fin 2) * 128 + 1 * (y 1).val = (y 1).val; rw [e41]; omega

/-- Window 5 stages its whole array at every point. -/
theorem blk5_apply (c : Dev nD) (t : Fin cfg0.N) (y : S256x128.Idx) :
    (iblk m c 5 t : FVec Ideal S256x128 .f32) y = (V m c main_v1 : S256x128.Idx → EReal) y := by
  obtain ⟨e00, e01, e10, e11, e20, e21, e30, e31, e40, e41, e50, e51, e60, e61, e70, e71, e80, e81⟩ := idx_facts t
  unfold iblk
  rw [View.read_apply]
  refine congrArg (V m c main_v1 : S256x128.Idx → EReal) (funext fun a => Fin.ext ?_)
  match a with
  | ⟨0, _⟩ => show win0_5.index t (0 : Fin 2) * 256 + 1 * (y 0).val = (y 0).val; rw [e50]; omega
  | ⟨1, _⟩ => show win0_5.index t (1 : Fin 2) * 128 + 1 * (y 1).val = (y 1).val; rw [e51]; omega

/-- Window 6 stages its whole array at every point. -/
theorem blk6_apply (c : Dev nD) (t : Fin cfg0.N) (y : S1x128.Idx) :
    (iblk m c 6 t : FVec Ideal S1x128 .f32) y = (V m c main_v3 : S1x128.Idx → EReal) y := by
  obtain ⟨e00, e01, e10, e11, e20, e21, e30, e31, e40, e41, e50, e51, e60, e61, e70, e71, e80, e81⟩ := idx_facts t
  unfold iblk
  rw [View.read_apply]
  refine congrArg (V m c main_v3 : S1x128.Idx → EReal) (funext fun a => Fin.ext ?_)
  match a with
  | ⟨0, _⟩ => show win0_6.index t (0 : Fin 2) * 1 + 1 * (y 0).val = (y 0).val; rw [e60]; omega
  | ⟨1, _⟩ => show win0_6.index t (1 : Fin 2) * 128 + 1 * (y 1).val = (y 1).val; rw [e61]; omega

/-! ## The arguments, as arrays of extended reals -/

abbrev a0 (c : Dev nD) : S16384x128.Idx → EReal := m ((c : Thread nD τ).loc main_arg0)
abbrev a1 (c : Dev nD) : S128x128.Idx → EReal := m ((c : Thread nD τ).loc main_arg1)
abbrev a2 (c : Dev nD) : S128.Idx → EReal := m ((c : Thread nD τ).loc main_arg2)
abbrev a3 (c : Dev nD) : S2048x128.Idx → EReal := m ((c : Thread nD τ).loc main_arg3)
abbrev a4 (c : Dev nD) : S2048x128.Idx → EReal := m ((c : Thread nD τ).loc main_arg4)
abbrev a5 (c : Dev nD) : S128x256.Idx → EReal := m ((c : Thread nD τ).loc main_arg5)
abbrev a6 (c : Dev nD) : S128.Idx → EReal := m ((c : Thread nD τ).loc main_arg6)

/-- The reading of the reference's normalized, transposed memory index at (k, r): entry k of memory row r over the row's
    clipped length.  It is proved on the reference's side; the kernel's host prefix computes the same array. -/
abbrev IndexReading : Prop :=
  ∀ (x3 : S2048x128.Idx → EReal) (k : Fin 128) (r : Fin 2048),
    Cert.ReferenceIdeal.ReadP.val_main_v13 (F := Ideal) x3 (ix2 k r) = GatedRead.unitRows (GatedRead.mat x3) r k

/-! ## The body's operands at a point are the specification's -/

theorem wt_eq (c : Dev nD) (t : Fin cfg0.N) :
    (fun (j k : Fin 128) => (iblk m c 1 t : FVec Ideal S128x128 .f32) (ix2 k j)) = GatedRead.mat (a1 m c) := by
  funext j k
  refine (blk1_apply m c t (ix2 k j)).trans ?_
  rw [Host.V_v0]
  exact transpose_ix2_apply _ _ k j

theorem bt_eq (c : Dev nD) (t : Fin cfg0.N) :
    (fun (j : Fin 128) => (iblk m c 2 t : FVec Ideal S1x128 .f32) (ix2 (0 : Fin 1) j)) = GatedRead.vec (a2 m c) := by
  funext j
  refine (blk2_apply m c t (ix2 (0 : Fin 1) j)).trans ?_
  rw [Host.V_v2]
  exact shapeCast_a_1a_apply _ _ 0 j

theorem mi_eq (hidx : IndexReading) (c : Dev nD) (t : Fin cfg0.N) :
    (fun (r : Fin 2048) (k : Fin 128) => (iblk m c 3 t : FVec Ideal S128x2048 .f32) (ix2 k r))
      = GatedRead.unitRows (GatedRead.mat (a3 m c)) := by
  funext r k
  refine (blk3_apply m c t (ix2 k r)).trans ?_
  rw [Host.V_v11]
  exact hidx _ k r

theorem mw_eq (c : Dev nD) (t : Fin cfg0.N) :
    (fun (r : Fin 2048) (j : Fin 128) => (iblk m c 4 t : FVec Ideal S2048x128 .f32) (ix2 r j)) = GatedRead.mat (a4 m c) := by
  funext r j
  refine (blk4_apply m c t (ix2 r j)).trans ?_
  rw [V_main_arg4]

theorem w2_eq (c : Dev nD) (t : Fin cfg0.N) :
    (fun (j : Fin 128) (k : Fin 256) => (iblk m c 5 t : FVec Ideal S256x128 .f32) (ix2 k j)) = GatedRead.mat (a5 m c) := by
  funext j k
  refine (blk5_apply m c t (ix2 k j)).trans ?_
  rw [Host.V_v1]
  exact transpose_ix2_apply _ _ k j

theorem b2_eq (c : Dev nD) (t : Fin cfg0.N) :
    (fun (j : Fin 128) => (iblk m c 6 t : FVec Ideal S1x128 .f32) (ix2 (0 : Fin 1) j)) = GatedRead.vec (a6 m c) := by
  funext j
  refine (blk6_apply m c t (ix2 (0 : Fin 1) j)).trans ?_
  rw [Host.V_v3]
  exact shapeCast_a_1a_apply _ _ 0 j

theorem q_eq (c : Dev nD) (t : Fin cfg0.N) (p : Fin 1024) (h : t.val * 1024 + p.val < 16384) :
    (fun (k : Fin 128) => (iblk m c 0 t : FVec Ideal S1024x128 .f32) (ix2 p k)) = GatedRead.rowOf (a0 m c) ⟨t.val * 1024 + p.val, h⟩ :=
  funext fun k => blk0_apply m c t p k h

/-- Row p of point t's block is row 1024·t + p of the array. -/
theorem row_lt (t : Fin cfg0.N) (p : Fin 1024) : t.val * 1024 + p.val < 16384 := by
  have ht : t.val < 16 := lt_of_lt_of_eq t.isLt N_0
  have := p.isLt
  omega

/-! ## What each point writes back -/

/-- Point t writes back, to the second result, rows 1024·t … of the specification's memory reads. -/
theorem flushed8_eq (hidx : IndexReading) (c : Dev nD) (t : Fin cfg0.N) :
    (dats m 0 c).flushed 8 t
      = ((cfg0.win 8).blk t).view.read (Elt Ideal) (GatedRead.memArr (a0 m c) (a1 m c) (a2 m c) (a3 m c) (a4 m c)) := by
  obtain ⟨e00, e01, e10, e11, e20, e21, e30, e31, e40, e41, e50, e51, e60, e61, e70, e71, e80, e81⟩ := idx_facts t
  rw [Value.flushed8]
  unfold out0_8
  rw [View.canon_unit_zero hz]
  simp only [View.ld_unit_zero (S := S1024x128) hz, View.ld_unit_zero (S := S128x128) hz, View.ld_unit_zero (S := S1x128) hz,
    View.ld_unit_zero (S := S128x2048) hz, View.ld_unit_zero (S := S2048x128) hz]
  have key : ∀ y : S1024x128.Idx,
      k0_pay2 (F := Ideal) (iblk m c 0 t) (iblk m c 1 t) (iblk m c 2 t) (iblk m c 3 t) (iblk m c 4 t) y
        = GatedRead.memArr (a0 m c) (a1 m c) (a2 m c) (a3 m c) (a4 m c) (((cfg0.win 8).blk t).view.emb y) := by
    intro y
    obtain ⟨p, j, rfl⟩ : ∃ (p : Fin 1024) (j : Fin 128), y = ix2 p j := ⟨y 0, y 1, eq_ix2 y⟩
    have hp := row_lt t p
    have hemb : ((cfg0.win 8).blk t).view.emb (ix2 p j) = ix2 (⟨t.val * 1024 + p.val, hp⟩ : Fin 16384) j :=
      funext fun a => Fin.ext (by
        match a with
        | ⟨0, _⟩ => show win0_8.index t (0 : Fin 2) * 1024 + 1 * p.val = t.val * 1024 + p.val; rw [e80]; omega
        | ⟨1, _⟩ => show win0_8.index t (1 : Fin 2) * 128 + 1 * j.val = j.val; rw [e81]; omega)
    rw [hemb, GatedRead.memArr_ix2]
    refine (Stage.pay2_apply (iblk m c 0 t) (iblk m c 1 t) (iblk m c 2 t) (iblk m c 3 t) (iblk m c 4 t) p j).trans ?_
    rw [wt_eq m c t, bt_eq m c t, mi_eq m hidx c t, mw_eq m c t, q_eq m c t p hp]
  funext y
  exact key y

/-- Point t writes back, to the first result, rows 1024·t … of the specification's gated mixes. -/
theorem flushed7_eq (hidx : IndexReading) (c : Dev nD) (t : Fin cfg0.N) :
    (dats m 0 c).flushed 7 t
      = ((cfg0.win 7).blk t).view.read (Elt Ideal)
          (GatedRead.outArr (a0 m c) (a1 m c) (a2 m c) (a3 m c) (a4 m c) (a5 m c) (a6 m c)) := by
  obtain ⟨e00, e01, e10, e11, e20, e21, e30, e31, e40, e41, e50, e51, e60, e61, e70, e71, e80, e81⟩ := idx_facts t
  rw [Value.flushed7]
  unfold out0_7
  rw [View.canon_unit_zero hz]
  simp only [View.ld_unit_zero (S := S1024x128) hz, View.ld_unit_zero (S := S128x128) hz, View.ld_unit_zero (S := S1x128) hz,
    View.ld_unit_zero (S := S128x2048) hz, View.ld_unit_zero (S := S2048x128) hz, View.ld_unit_zero (S := S256x128) hz]
  have key : ∀ y : S1024x128.Idx,
      k0_pay1 (F := Ideal) (iblk m c 0 t)
          (k0_pay2 (F := Ideal) (iblk m c 0 t) (iblk m c 1 t) (iblk m c 2 t) (iblk m c 3 t) (iblk m c 4 t))
          (k0_pay3 (F := Ideal) (iblk m c 0 t) (iblk m c 1 t) (iblk m c 2 t) (iblk m c 3 t) (iblk m c 4 t))
          (iblk m c 5 t) (iblk m c 6 t) y
        = GatedRead.outArr (a0 m c) (a1 m c) (a2 m c) (a3 m c) (a4 m c) (a5 m c) (a6 m c) (((cfg0.win 7).blk t).view.emb y) := by
    intro y
    obtain ⟨p, j, rfl⟩ : ∃ (p : Fin 1024) (j : Fin 128), y = ix2 p j := ⟨y 0, y 1, eq_ix2 y⟩
    have hp := row_lt t p
    have hemb : ((cfg0.win 7).blk t).view.emb (ix2 p j) = ix2 (⟨t.val * 1024 + p.val, hp⟩ : Fin 16384) j :=
      funext fun a => Fin.ext (by
        match a with
        | ⟨0, _⟩ => show win0_7.index t (0 : Fin 2) * 1024 + 1 * p.val = t.val * 1024 + p.val; rw [e70]; omega
        | ⟨1, _⟩ => show win0_7.index t (1 : Fin 2) * 128 + 1 * j.val = j.val; rw [e71]; omega)
    rw [hemb, GatedRead.outArr_ix2]
    refine (Stage.pay1_apply (iblk m c 0 t) (iblk m c 1 t) (iblk m c 2 t) (iblk m c 3 t) (iblk m c 4 t) (iblk m c 5 t) (iblk m c 6 t) p j).trans ?_
    rw [wt_eq m c t, bt_eq m c t, mi_eq m hidx c t, mw_eq m c t, w2_eq m c t, b2_eq m c t, q_eq m c t p hp]
  funext y
  exact key y

/-! ## The sixteen blocks tile the rows -/

/-- The point whose block holds row r is r / 1024. -/
theorem point_of_row (i : S16384x128.Idx) : ∃ t : Fin cfg0.N, t.val = (i 0).val / 1024 := by
  have hi0 : (i 0).val < 16384 := (i 0).isLt
  exact ⟨⟨(i 0).val / 1024, lt_of_lt_of_eq (by omega : (i 0).val / 1024 < 16) N_0.symm⟩, rfl⟩

theorem mem_blk7 (t : Fin cfg0.N) (i : S16384x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v12_0).slice (win0_7.rect t)).set ↔ _
  rw [View.set_slice_whole, Rect.mem_set_unit]
  exact Iff.rfl

theorem mem_blk8 (t : Fin cfg0.N) (i : S16384x128.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v12_1).slice (win0_8.rect t)).set ↔ _
  rw [View.set_slice_whole, Rect.mem_set_unit]
  exact Iff.rfl

theorem cover7 (i : S16384x128.Idx) : ∃ t : Fin cfg0.N, (cfg0.win 7).flush t = true ∧ i ∈ ((cfg0.win 7).blk t).view.set := by
  have hi0 : (i 0).val < 16384 := (i 0).isLt
  have hi1 : (i 1).val < 128 := (i 1).isLt
  obtain ⟨t, ht⟩ := point_of_row i
  obtain ⟨e00, e01, e10, e11, e20, e21, e30, e31, e40, e41, e50, e51, e60, e61, e70, e71, e80, e81⟩ := idx_facts t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; rw [e70, ht]; omega
  | ⟨1, _⟩ => show win0_7.index t (1 : Fin 2) * 128 ≤ (i 1).val ∧ (i 1).val < win0_7.index t (1 : Fin 2) * 128 + 128; rw [e71]; omega

theorem cover8 (i : S16384x128.Idx) : ∃ t : Fin cfg0.N, (cfg0.win 8).flush t = true ∧ i ∈ ((cfg0.win 8).blk t).view.set := by
  have hi0 : (i 0).val < 16384 := (i 0).isLt
  have hi1 : (i 1).val < 128 := (i 1).isLt
  obtain ⟨t, ht⟩ := point_of_row i
  obtain ⟨e00, e01, e10, e11, e20, e21, e30, e31, e40, e41, e50, e51, e60, e61, e70, e71, e80, e81⟩ := idx_facts t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; rw [e80, ht]; omega
  | ⟨1, _⟩ => show win0_8.index t (1 : Fin 2) * 128 ≤ (i 1).val ∧ (i 1).val < win0_8.index t (1 : Fin 2) * 128 + 128; rw [e81]; omega

/-! ## The result arrays after the run -/

theorem final7 (hidx : IndexReading) (c : Dev nD) :
    (dats m 0 c).arrAt 7 cfg0.N = GatedRead.outArr (a0 m c) (a1 m c) (a2 m c) (a3 m c) (a4 m c) (a5 m c) (a6 m c) :=
  (dats m 0 c).arrAt_eq_of_cover 7 (GatedRead.outArr (a0 m c) (a1 m c) (a2 m c) (a3 m c) (a4 m c) (a5 m c) (a6 m c))
    (fun t _ => flushed7_eq m hidx c t) cover7

theorem final8 (hidx : IndexReading) (c : Dev nD) :
    (dats m 0 c).arrAt 8 cfg0.N = GatedRead.memArr (a0 m c) (a1 m c) (a2 m c) (a3 m c) (a4 m c) :=
  (dats m 0 c).arrAt_eq_of_cover 8 (GatedRead.memArr (a0 m c) (a1 m c) (a2 m c) (a3 m c) (a4 m c))
    (fun t _ => flushed8_eq m hidx c t) cover8

/-- The kernel's run, read: every weakly fair execution ends with the first result at the specification's gated mixes,
    the second at its memory reads, and the arguments as they were. -/
theorem run (hidx : IndexReading) :
    θ_run defs (onTc (τ := τ) (main (F := Ideal))) ⟨m, fun _ => 0, ρ⟩ fun r => ∀ c : Dev nD,
      r.2.mem ((c : Thread nD τ).loc main_v12_0) = GatedRead.outArr (a0 m c) (a1 m c) (a2 m c) (a3 m c) (a4 m c) (a5 m c) (a6 m c)
      ∧ r.2.mem ((c : Thread nD τ).loc main_v12_1) = GatedRead.memArr (a0 m c) (a1 m c) (a2 m c) (a3 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m hidx c), (h c).2.1.trans (final8 m hidx c), (h c).2.2⟩)
    (Cert.KernelIdeal.Value.run_blocks m ρ)

end Cert.KernelIdeal.Arrays

end
-- ==== Proof.RefRun.lean ====
/- The reference program's run, read back over named stages.

   The program is a straight line of 57 host operations. It is read stretch by stretch: the line is cut into nine
   consecutive stretches, each ending at a value that is used more than once or far from where it is made
   (%4, %8, %13, %14, %21, %25, %26, %33 and the result %38). For an ARBITRARY valuation `X` of the buffers at a
   stretch's start, the stretch's last value is a function of the values the stretch takes over from before it
   (`cut1` … `cut9`): it is the stage function `ReadP.val_main_vN` of the program's arguments whenever the values
   taken over are theirs. A buffer that no operation of a stretch writes keeps its contents across the stretch
   (`w1` … `w9` list what each stretch writes), and no operation writes an argument. Chained from the launch
   contents (`e4` … `e38`), every result is its stage function of the program's arguments, and the arguments
   are untouched (`run`). -/
import proofs.«160925_j54520314856137_1_alg».proof.Proof.RefOps
import proofs.«160925_j54520314856137_1_alg».proof.Proof.RefRead
import Idealize.ShloMosaic.Lib.StableHlo.Run
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## The nine stretches -/

/-- Operations 1–5. %0 … %4: the first projection, `x0 · x1ᵀ + x2` broadcast over the rows. -/
abbrev s1 : List (HloOp τ sig (Elt F)) :=
  [ unary main_arg1 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S16384x128 ![0, 1] bcast_S1x128_S16384x128_0_1 : (⟨S1x128, .f32⟩ : BufTy).Contents (Elt F) → (⟨S16384x128, .f32⟩ : BufTy).Contents (Elt F)),
    binary main_v1 main_v3 main_v4 (addf : (⟨S16384x128, .f32⟩ : BufTy).Contents (Elt F) → (⟨S16384x128, .f32⟩ : BufTy).Contents (Elt F) → (⟨S16384x128, .f32⟩ : BufTy).Contents (Elt F)) ]

/-- Operations 6–16. @norm and @clip on %4, then %8 = %4 / max(ε, ‖%4‖) row by row. -/
abbrev s2 : List (HloOp τ sig (Elt F)) :=
  [ TRef.binary (TRef.of (T := ⟨S16384x128, .f32⟩) main_v4) (TRef.of (T := ⟨S16384x128, .f32⟩) main_v4) (TRef.of (T := ⟨S16384x128, .f32⟩) main_call0_v0) mulf,
    TRef.nullary (TRef.of (T := ⟨S_, .f32⟩) main_call0_cst) (constant S_ .f32 0x00000000#32),
    TRef.binary (TRef.of (T := ⟨S16384x128, .f32⟩) main_call0_v0) (TRef.of (T := ⟨S_, .f32⟩) main_call0_cst) (TRef.of (T := ⟨S16384, .f32⟩) main_call0_v1) (fun x v => Host.reduceAdd x v reducesTo_S16384x128_S16384_d1 h_S_),
    TRef.unary (TRef.of (T := ⟨S16384, .f32⟩) main_call0_v1) (TRef.of (T := ⟨S16384x1, .f32⟩) main_call0_v2) (broadcastInDim S16384x1 ![0] bcast_S16384_S16384x1_0),
    TRef.unary (TRef.of (T := ⟨S16384x1, .f32⟩) main_call0_v2) (TRef.of (T := ⟨S16384x1, .f32⟩) main_v5) Host.sqrt,
    nullary main_cst (constant S_ .f32 0x322BCC77#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S16384x1, .f32⟩) main_call1_v1) (broadcastInDim S16384x1 ![] bcast_S_S16384x1),
    TRef.binary (TRef.of (T := ⟨S16384x1, .f32⟩) main_call1_v1) (TRef.of (T := ⟨S16384x1, .f32⟩) main_v5) (TRef.of (T := ⟨S16384x1, .f32⟩) main_v6) maximumf,
    unary main_v6 main_v7 (broadcastInDim S16384x128 ![0, 1] bcast_S16384x1_S16384x128_0_1 : (⟨S16384x1, .f32⟩ : BufTy).Contents (Elt F) → (⟨S16384x128, .f32⟩ : BufTy).Contents (Elt F)),
    binary main_v4 main_v7 main_v8 (Host.divf : (⟨S16384x128, .f32⟩ : BufTy).Contents (Elt F) → (⟨S16384x128, .f32⟩ : BufTy).Contents (Elt F) → (⟨S16384x128, .f32⟩ : BufTy).Contents (Elt F)) ]

/-- Operations 17–28. @norm_0 and @clip_1 on the fourth argument, then %12 = x3 / max(ε, ‖x3‖) row by row and its transpose %13. -/
abbrev s3 : List (HloOp τ sig (Elt F)) :=
  [ TRef.binary (TRef.of (T := ⟨S2048x128, .f32⟩) main_arg3) (TRef.of (T := ⟨S2048x128, .f32⟩) main_arg3) (TRef.of (T := ⟨S2048x128, .f32⟩) main_call2_v0) mulf,
    TRef.nullary (TRef.of (T := ⟨S_, .f32⟩) main_call2_cst) (constant S_ .f32 0x00000000#32),
    TRef.binary (TRef.of (T := ⟨S2048x128, .f32⟩) main_call2_v0) (TRef.of (T := ⟨S_, .f32⟩) main_call2_cst) (TRef.of (T := ⟨S2048, .f32⟩) main_call2_v1) (fun x v => Host.reduceAdd x v reducesTo_S2048x128_S2048_d1 h_S_),
    TRef.unary (TRef.of (T := ⟨S2048, .f32⟩) main_call2_v1) (TRef.of (T := ⟨S2048x1, .f32⟩) main_call2_v2) (broadcastInDim S2048x1 ![0] bcast_S2048_S2048x1_0),
    TRef.unary (TRef.of (T := ⟨S2048x1, .f32⟩) main_call2_v2) (TRef.of (T := ⟨S2048x1, .f32⟩) main_v9) Host.sqrt,
    nullary main_cst_0 (constant S_ .f32 0x322BCC77#32),
    TRef.unary (TRef.of (T := ⟨S_, .f32⟩) main_cst_0) (TRef.of (T := ⟨S_, .f32⟩) main_call3_v0) id,
    TRef.unary (TRef.of (T := ⟨S_, .f32⟩) main_call3_v0) (TRef.of (T := ⟨S2048x1, .f32⟩) main_call3_v1) (broadcastInDim S2048x1 ![] bcast_S_S2048x1),
    TRef.binary (TRef.of (T := ⟨S2048x1, .f32⟩) main_call3_v1) (TRef.of (T := ⟨S2048x1, .f32⟩) main_v9) (TRef.of (T := ⟨S2048x1, .f32⟩) main_v10) maximumf,
    unary main_v10 main_v11 (broadcastInDim S2048x128 ![0, 1] bcast_S2048x1_S2048x128_0_1 : (⟨S2048x1, .f32⟩ : BufTy).Contents (Elt F) → (⟨S2048x128, .f32⟩ : BufTy).Contents (Elt F)),
    binary main_arg3 main_v11 main_v12 (Host.divf : (⟨S2048x128, .f32⟩ : BufTy).Contents (Elt F) → (⟨S2048x128, .f32⟩ : BufTy).Contents (Elt F) → (⟨S2048x128, .f32⟩ : BufTy).Contents (Elt F)),
    unary main_v12 main_v13 ((transpose S128x2048 [1, 0] · transposes_S2048x128_S128x2048_1_0) : (⟨S2048x128, .f32⟩ : BufTy).Contents (Elt F) → (⟨S128x2048, .f32⟩ : BufTy).Contents (Elt F)) ]

/-- Operation 29. %14 = %8 · %13, the scores. -/
abbrev s4 : List (HloOp τ sig (Elt F)) :=
  [ binary main_v8 main_v13 main_v14 ((fun l r => Host.dotGeneral dot_S16384x128_S128x2048_S16384x2048_1_0_0_1_n_n none l r) : (⟨S16384x128, .f32⟩ : BufTy).Contents (Elt F) → (⟨S128x2048, .f32⟩ : BufTy).Contents (Elt F) → (⟨S16384x2048, .f32⟩ : BufTy).Contents (Elt F)) ]

/-- Operations 30–38. %15 … %21: the row maximum of the scores, subtracted, and the exponential. -/
abbrev s5 : List (HloOp τ sig (Elt F)) :=
  [ nullary main_cst_1 (constant S_ .f32 0xFF800000#32),
    binary main_v14 main_cst_1 main_v15 ((fun x v => Host.reduce FloatOps.maximumf x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    nullary main_cst_2 (constant S_ .f32 0xFF800000#32),
    unary main_cst_2 main_v16 (broadcastInDim S16384 ![] bcast_S_S16384 : (⟨S_, .f32⟩ : BufTy).Contents (Elt F) → (⟨S16384, .f32⟩ : BufTy).Contents (Elt F)),
    binary main_v16 main_v15 main_v17 (maximumf : (⟨S16384, .f32⟩ : BufTy).Contents (Elt F) → (⟨S16384, .f32⟩ : BufTy).Contents (Elt F) → (⟨S16384, .f32⟩ : BufTy).Contents (Elt F)),
    unary main_v17 main_v18 (broadcastInDim S16384x1 ![0] bcast_S16384_S16384x1_0 : (⟨S16384, .f32⟩ : BufTy).Contents (Elt F) → (⟨S16384x1, .f32⟩ : BufTy).Contents (Elt F)),
    unary main_v18 main_v19 (broadcastInDim S16384x2048 ![0, 1] bcast_S16384x1_S16384x2048_0_1 : (⟨S16384x1, .f32⟩ : BufTy).Contents (Elt F) → (⟨S16384x2048, .f32⟩ : BufTy).Contents (Elt F)),
    binary main_v14 main_v19 main_v20 (subf : (⟨S16384x2048, .f32⟩ : BufTy).Contents (Elt F) → (⟨S16384x2048, .f32⟩ : BufTy).Contents (Elt F) → (⟨S16384x2048, .f32⟩ : BufTy).Contents (Elt F)),
    unary main_v20 main_v21 (Host.exp : (⟨S16384x2048, .f32⟩ : BufTy).Contents (Elt F) → (⟨S16384x2048, .f32⟩ : BufTy).Contents (Elt F)) ]

/-- Operations 39–43. %22 … %25: the row sum of the exponentials and the quotient by it. -/
abbrev s6 : List (HloOp τ sig (Elt F)) :=
  [ nullary main_cst_3 (constant S_ .f32 0x00000000#32),
    binary main_v21 main_cst_3 main_v22 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    unary main_v22 main_v23 (broadcastInDim S16384x1 ![0] bcast_S16384_S16384x1_0 : (⟨S16384, .f32⟩ : BufTy).Contents (Elt F) → (⟨S16384x1, .f32⟩ : BufTy).Contents (Elt F)),
    unary main_v23 main_v24 (broadcastInDim S16384x2048 ![0, 1] bcast_S16384x1_S16384x2048_0_1 : (⟨S16384x1, .f32⟩ : BufTy).Contents (Elt F) → (⟨S16384x2048, .f32⟩ : BufTy).Contents (Elt F)),
    binary main_v21 main_v24 main_v25 (Host.divf : (⟨S16384x2048, .f32⟩ : BufTy).Contents (Elt F) → (⟨S16384x2048, .f32⟩ : BufTy).Contents (Elt F) → (⟨S16384x2048, .f32⟩ : BufTy).Contents (Elt F)) ]

/-- Operation 44. %26 = %25 · x4, the weighted sum; the last two stretches read it again. -/
abbrev s7 : List (HloOp τ sig (Elt F)) :=
  [ binary main_v25 main_arg4 main_v26 ((fun l r => Host.dotGeneral dot_S16384x2048_S2048x128_S16384x128_1_0_0_1_n_n none l r) : (⟨S16384x2048, .f32⟩ : BufTy).Contents (Elt F) → (⟨S2048x128, .f32⟩ : BufTy).Contents (Elt F) → (⟨S16384x128, .f32⟩ : BufTy).Contents (Elt F)) ]

/-- Operations 45–51. %27 … %33: %26 joined with x0 along the columns, times x5ᵀ, plus x6, and the hyperbolic tangent. -/
abbrev s8 : List (HloOp τ sig (Elt F)) :=
  [ binary main_v26 main_arg0 main_v27 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    unary main_arg5 main_v28 ((transpose S256x128 [1, 0] · transposes_S128x256_S256x128_1_0) : (⟨S128x256, .f32⟩ : BufTy).Contents (Elt F) → (⟨S256x128, .f32⟩ : BufTy).Contents (Elt F)),
    binary main_v27 main_v28 main_v29 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg6 main_v30 (broadcastInDim S1x128 ![1] bcast_S128_S1x128_1 : (⟨S128, .f32⟩ : BufTy).Contents (Elt F) → (⟨S1x128, .f32⟩ : BufTy).Contents (Elt F)),
    unary main_v30 main_v31 (broadcastInDim S16384x128 ![0, 1] bcast_S1x128_S16384x128_0_1 : (⟨S1x128, .f32⟩ : BufTy).Contents (Elt F) → (⟨S16384x128, .f32⟩ : BufTy).Contents (Elt F)),
    binary main_v29 main_v31 main_v32 (addf : (⟨S16384x128, .f32⟩ : BufTy).Contents (Elt F) → (⟨S16384x128, .f32⟩ : BufTy).Contents (Elt F) → (⟨S16384x128, .f32⟩ : BufTy).Contents (Elt F)),
    unary main_v32 main_v33 (Host.tanh : (⟨S16384x128, .f32⟩ : BufTy).Contents (Elt F) → (⟨S16384x128, .f32⟩ : BufTy).Contents (Elt F)) ]

/-- Operations 52–57. %34 … %38: (1 − %33) · x0 + %33 · %26. -/
abbrev s9 : List (HloOp τ sig (Elt F)) :=
  [ nullary main_cst_4 (constant S_ .f32 0x3F800000#32),
    unary main_cst_4 main_v34 (broadcastInDim S16384x128 ![] bcast_S_S16384x128 : (⟨S_, .f32⟩ : BufTy).Contents (Elt F) → (⟨S16384x128, .f32⟩ : BufTy).Contents (Elt F)),
    binary main_v34 main_v33 main_v35 (subf : (⟨S16384x128, .f32⟩ : BufTy).Contents (Elt F) → (⟨S16384x128, .f32⟩ : BufTy).Contents (Elt F) → (⟨S16384x128, .f32⟩ : BufTy).Contents (Elt F)),
    binary main_v35 main_arg0 main_v36 (mulf : (⟨S16384x128, .f32⟩ : BufTy).Contents (Elt F) → (⟨S16384x128, .f32⟩ : BufTy).Contents (Elt F) → (⟨S16384x128, .f32⟩ : BufTy).Contents (Elt F)),
    binary main_v33 main_v26 main_v37 (mulf : (⟨S16384x128, .f32⟩ : BufTy).Contents (Elt F) → (⟨S16384x128, .f32⟩ : BufTy).Contents (Elt F) → (⟨S16384x128, .f32⟩ : BufTy).Contents (Elt F)),
    binary main_v36 main_v37 main_v38 (addf : (⟨S16384x128, .f32⟩ : BufTy).Contents (Elt F) → (⟨S16384x128, .f32⟩ : BufTy).Contents (Elt F) → (⟨S16384x128, .f32⟩ : BufTy).Contents (Elt F)) ]

/-- The program's operations are the nine stretches in a row. -/
theorem ops_eq : (ValueP.ops : List (HloOp τ sig (Elt F))) = s1 ++ (s2 ++ (s3 ++ (s4 ++ (s5 ++ (s6 ++ (s7 ++ (s8 ++ s9))))))) := rfl

/-! ## What each stretch writes -/

/-- A one-element set of buffers lies in the set of a list of references that has the reference. -/
theorem writes_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references stretch 1 writes: one per operation, its result. -/
abbrev W1 : List (Ref sig .tc) := [main_v0, main_v1, main_v2, main_v3, main_v4]
theorem w1 : (s1 : List (HloOp τ sig (Elt F))).Forall fun op => op.writes ⊆ ((W1).map (Proc.devRef (τ := τ) .tc)).toFinset :=
  ⟨writes_of_mem (by decide), writes_of_mem (by decide), writes_of_mem (by decide), writes_of_mem (by decide), writes_of_mem (by decide)⟩

/-- The references stretch 2 writes: one per operation, its result. -/
abbrev W2 : List (Ref sig .tc) := [main_call0_v0, main_call0_cst, main_call0_v1, main_call0_v2, main_v5, main_cst, main_call1_v0, main_call1_v1, main_v6, main_v7, main_v8]
theorem w2 : (s2 : List (HloOp τ sig (Elt F))).Forall fun op => op.writes ⊆ ((W2).map (Proc.devRef (τ := τ) .tc)).toFinset :=
  ⟨writes_of_mem (by decide), writes_of_mem (by decide), writes_of_mem (by decide), writes_of_mem (by decide), writes_of_mem (by decide), writes_of_mem (by decide), writes_of_mem (by decide), writes_of_mem (by decide), writes_of_mem (by decide), writes_of_mem (by decide), writes_of_mem (by decide)⟩

/-- The references stretch 3 writes: one per operation, its result. -/
abbrev W3 : List (Ref sig .tc) := [main_call2_v0, main_call2_cst, main_call2_v1, main_call2_v2, main_v9, main_cst_0, main_call3_v0, main_call3_v1, main_v10, main_v11, main_v12, main_v13]
theorem w3 : (s3 : List (HloOp τ sig (Elt F))).Forall fun op => op.writes ⊆ ((W3).map (Proc.devRef (τ := τ) .tc)).toFinset :=
  ⟨writes_of_mem (by decide), writes_of_mem (by decide), writes_of_mem (by decide), writes_of_mem (by decide), writes_of_mem (by decide), writes_of_mem (by decide), writes_of_mem (by decide), writes_of_mem (by decide), writes_of_mem (by decide), writes_of_mem (by decide), writes_of_mem (by decide), writes_of_mem (by decide)⟩

/-- The references stretch 4 writes: one per operation, its result. -/
abbrev W4 : List (Ref sig .tc) := [main_v14]
theorem w4 : (s4 : List (HloOp τ sig (Elt F))).Forall fun op => op.writes ⊆ ((W4).map (Proc.devRef (τ := τ) .tc)).toFinset :=
  writes_of_mem (by decide)

/-- The references stretch 5 writes: one per operation, its result. -/
abbrev W5 : List (Ref sig .tc) := [main_cst_1, main_v15, main_cst_2, main_v16, main_v17, main_v18, main_v19, main_v20, main_v21]
theorem w5 : (s5 : List (HloOp τ sig (Elt F))).Forall fun op => op.writes ⊆ ((W5).map (Proc.devRef (τ := τ) .tc)).toFinset :=
  ⟨writes_of_mem (by decide), writes_of_mem (by decide), writes_of_mem (by decide), writes_of_mem (by decide), writes_of_mem (by decide), writes_of_mem (by decide), writes_of_mem (by decide), writes_of_mem (by decide), writes_of_mem (by decide)⟩

/-- The references stretch 6 writes: one per operation, its result. -/
abbrev W6 : List (Ref sig .tc) := [main_cst_3, main_v22, main_v23, main_v24, main_v25]
theorem w6 : (s6 : List (HloOp τ sig (Elt F))).Forall fun op => op.writes ⊆ ((W6).map (Proc.devRef (τ := τ) .tc)).toFinset :=
  ⟨writes_of_mem (by decide), writes_of_mem (by decide), writes_of_mem (by decide), writes_of_mem (by decide), writes_of_mem (by decide)⟩

/-- The references stretch 7 writes: one per operation, its result. -/
abbrev W7 : List (Ref sig .tc) := [main_v26]
theorem w7 : (s7 : List (HloOp τ sig (Elt F))).Forall fun op => op.writes ⊆ ((W7).map (Proc.devRef (τ := τ) .tc)).toFinset :=
  writes_of_mem (by decide)

/-- The references stretch 8 writes: one per operation, its result. -/
abbrev W8 : List (Ref sig .tc) := [main_v27, main_v28, main_v29, main_v30, main_v31, main_v32, main_v33]
theorem w8 : (s8 : List (HloOp τ sig (Elt F))).Forall fun op => op.writes ⊆ ((W8).map (Proc.devRef (τ := τ) .tc)).toFinset :=
  ⟨writes_of_mem (by decide), writes_of_mem (by decide), writes_of_mem (by decide), writes_of_mem (by decide), writes_of_mem (by decide), writes_of_mem (by decide), writes_of_mem (by decide)⟩

/-- The references stretch 9 writes: one per operation, its result. -/
abbrev W9 : List (Ref sig .tc) := [main_cst_4, main_v34, main_v35, main_v36, main_v37, main_v38]
theorem w9 : (s9 : List (HloOp τ sig (Elt F))).Forall fun op => op.writes ⊆ ((W9).map (Proc.devRef (τ := τ) .tc)).toFinset :=
  ⟨writes_of_mem (by decide), writes_of_mem (by decide), writes_of_mem (by decide), writes_of_mem (by decide), writes_of_mem (by decide), writes_of_mem (by decide)⟩

/-! ## Each stretch's last value, from the values it takes over

`X` is any valuation of the buffers at the stretch's start. Each operation's result at its own buffer is its
function of its operands' contents, and at any other buffer what was there; what is left is the stretch's own
operations applied to `X` at the buffers the stretch takes over, which the hypotheses name. -/

/-- %4 from the first three arguments. -/
theorem cut1 (X : Valuation τ sig (Elt F)) :
    after s1 X (Proc.devRef .tc main_v4) = ReadP.val_main_v4 (F := F) (X (Proc.devRef .tc main_arg0)) (X (Proc.devRef .tc main_arg1)) (X (Proc.devRef .tc main_arg2)) := by
  after_results
  rfl

/-- %8 from %4. -/
theorem cut2 (X : Valuation τ sig (Elt F)) (a0 : (⟨S16384x128, .f32⟩ : BufTy).Contents (Elt F)) (a1 : (⟨S128x128, .f32⟩ : BufTy).Contents (Elt F)) (a2 : (⟨S128, .f32⟩ : BufTy).Contents (Elt F))
    (h4 : X (Proc.devRef .tc main_v4) = ReadP.val_main_v4 (F := F) a0 a1 a2) :
    after s2 X (Proc.devRef .tc main_v8) = ReadP.val_main_v8 (F := F) a0 a1 a2 := by
  after_results
  rw [h4]
  rfl

/-- %13 from the fourth argument. -/
theorem cut3 (X : Valuation τ sig (Elt F)) (a3 : (⟨S2048x128, .f32⟩ : BufTy).Contents (Elt F))
    (h3 : X (Proc.devRef .tc main_arg3) = a3) :
    after s3 X (Proc.devRef .tc main_v13) = ReadP.val_main_v13 (F := F) a3 := by
  after_results
  rw [h3]
  rfl

/-- %14 from %8 and %13. -/
theorem cut4 (X : Valuation τ sig (Elt F)) (a0 : (⟨S16384x128, .f32⟩ : BufTy).Contents (Elt F)) (a1 : (⟨S128x128, .f32⟩ : BufTy).Contents (Elt F)) (a2 : (⟨S128, .f32⟩ : BufTy).Contents (Elt F)) (a3 : (⟨S2048x128, .f32⟩ : BufTy).Contents (Elt F))
    (h8 : X (Proc.devRef .tc main_v8) = ReadP.val_main_v8 (F := F) a0 a1 a2)
    (h13 : X (Proc.devRef .tc main_v13) = ReadP.val_main_v13 (F := F) a3) :
    after s4 X (Proc.devRef .tc main_v14) = ReadP.val_main_v14 (F := F) a0 a1 a2 a3 := by
  after_results
  rw [h8, h13]
  rfl

/-- %21 from %14. -/
theorem cut5 (X : Valuation τ sig (Elt F)) (a0 : (⟨S16384x128, .f32⟩ : BufTy).Contents (Elt F)) (a1 : (⟨S128x128, .f32⟩ : BufTy).Contents (Elt F)) (a2 : (⟨S128, .f32⟩ : BufTy).Contents (Elt F)) (a3 : (⟨S2048x128, .f32⟩ : BufTy).Contents (Elt F))
    (h14 : X (Proc.devRef .tc main_v14) = ReadP.val_main_v14 (F := F) a0 a1 a2 a3) :
    after s5 X (Proc.devRef .tc main_v21) = ReadP.val_main_v21 (F := F) a0 a1 a2 a3 := by
  after_results
  rw [h14]
  rfl

/-- %25 from %21. -/
theorem cut6 (X : Valuation τ sig (Elt F)) (a0 : (⟨S16384x128, .f32⟩ : BufTy).Contents (Elt F)) (a1 : (⟨S128x128, .f32⟩ : BufTy).Contents (Elt F)) (a2 : (⟨S128, .f32⟩ : BufTy).Contents (Elt F)) (a3 : (⟨S2048x128, .f32⟩ : BufTy).Contents (Elt F))
    (h21 : X (Proc.devRef .tc main_v21) = ReadP.val_main_v21 (F := F) a0 a1 a2 a3) :
    after s6 X (Proc.devRef .tc main_v25) = ReadP.val_main_v25 (F := F) a0 a1 a2 a3 := by
  after_results
  rw [h21]
  rfl

/-- %26 from %25 and the fifth argument. -/
theorem cut7 (X : Valuation τ sig (Elt F)) (a0 : (⟨S16384x128, .f32⟩ : BufTy).Contents (Elt F)) (a1 : (⟨S128x128, .f32⟩ : BufTy).Contents (Elt F)) (a2 : (⟨S128, .f32⟩ : BufTy).Contents (Elt F)) (a3 : (⟨S2048x128, .f32⟩ : BufTy).Contents (Elt F)) (a4 : (⟨S2048x128, .f32⟩ : BufTy).Contents (Elt F))
    (h25 : X (Proc.devRef .tc main_v25) = ReadP.val_main_v25 (F := F) a0 a1 a2 a3)
    (h4 : X (Proc.devRef .tc main_arg4) = a4) :
    after s7 X (Proc.devRef .tc main_v26) = ReadP.val_main_v26 (F := F) a0 a1 a2 a3 a4 := by
  after_results
  rw [h25, h4]
  rfl

/-- %33 from %26 and the first, sixth and seventh arguments. -/
theorem cut8 (X : Valuation τ sig (Elt F)) (a0 : (⟨S16384x128, .f32⟩ : BufTy).Contents (Elt F)) (a1 : (⟨S128x128, .f32⟩ : BufTy).Contents (Elt F)) (a2 : (⟨S128, .f32⟩ : BufTy).Contents (Elt F)) (a3 : (⟨S2048x128, .f32⟩ : BufTy).Contents (Elt F)) (a4 : (⟨S2048x128, .f32⟩ : BufTy).Contents (Elt F)) (a5 : (⟨S128x256, .f32⟩ : BufTy).Contents (Elt F)) (a6 : (⟨S128, .f32⟩ : BufTy).Contents (Elt F))
    (h26 : X (Proc.devRef .tc main_v26) = ReadP.val_main_v26 (F := F) a0 a1 a2 a3 a4)
    (h0 : X (Proc.devRef .tc main_arg0) = a0) (h5 : X (Proc.devRef .tc main_arg5) = a5) (h6 : X (Proc.devRef .tc main_arg6) = a6) :
    after s8 X (Proc.devRef .tc main_v33) = ReadP.val_main_v33 (F := F) a0 a1 a2 a3 a4 a5 a6 := by
  after_results
  rw [h26, h0, h5, h6]
  rfl

/-- %38 from %33, %26 and the first argument. -/
theorem cut9 (X : Valuation τ sig (Elt F)) (a0 : (⟨S16384x128, .f32⟩ : BufTy).Contents (Elt F)) (a1 : (⟨S128x128, .f32⟩ : BufTy).Contents (Elt F)) (a2 : (⟨S128, .f32⟩ : BufTy).Contents (Elt F)) (a3 : (⟨S2048x128, .f32⟩ : BufTy).Contents (Elt F)) (a4 : (⟨S2048x128, .f32⟩ : BufTy).Contents (Elt F)) (a5 : (⟨S128x256, .f32⟩ : BufTy).Contents (Elt F)) (a6 : (⟨S128, .f32⟩ : BufTy).Contents (Elt F))
    (h33 : X (Proc.devRef .tc main_v33) = ReadP.val_main_v33 (F := F) a0 a1 a2 a3 a4 a5 a6)
    (h26 : X (Proc.devRef .tc main_v26) = ReadP.val_main_v26 (F := F) a0 a1 a2 a3 a4)
    (h0 : X (Proc.devRef .tc main_arg0) = a0) :
    after s9 X (Proc.devRef .tc main_v38) = ReadP.val_main_v38 (F := F) a0 a1 a2 a3 a4 a5 a6 := by
  after_results
  rw [h33, h26, h0]
  rfl

/-! ## The chain from the start contents `V` -/

section Chain

variable (V : Valuation τ sig (Elt F))

/-- The contents after the first stretch, after the first two, and so on. -/
abbrev X1 : Valuation τ sig (Elt F) := after s1 V
abbrev X2 : Valuation τ sig (Elt F) := after s2 (X1 V)
abbrev X3 : Valuation τ sig (Elt F) := after s3 (X2 V)
abbrev X4 : Valuation τ sig (Elt F) := after s4 (X3 V)
abbrev X5 : Valuation τ sig (Elt F) := after s5 (X4 V)
abbrev X6 : Valuation τ sig (Elt F) := after s6 (X5 V)
abbrev X7 : Valuation τ sig (Elt F) := after s7 (X6 V)
abbrev X8 : Valuation τ sig (Elt F) := after s8 (X7 V)
abbrev X9 : Valuation τ sig (Elt F) := after s9 (X8 V)

/-- The whole line run from `V` is the ninth of them. -/
theorem after_ops : after ValueP.ops V = X9 V := by
  rw [ops_eq]
  simp only [after_append]

/-- A buffer none of the first stretches writes still holds what it held at the start. -/
theorem to1 {r : Ref sig .tc} (h : r ∉ W1) : X1 V (Proc.devRef .tc r) = V (Proc.devRef .tc r) :=
  after_of_writes_sub s1 V w1 h
theorem to2 {r : Ref sig .tc} (h : r ∉ W1 ∧ r ∉ W2) : X2 V (Proc.devRef .tc r) = V (Proc.devRef .tc r) :=
  (after_of_writes_sub s2 (X1 V) w2 h.2).trans (to1 V h.1)
theorem to3 {r : Ref sig .tc} (h : (r ∉ W1 ∧ r ∉ W2) ∧ r ∉ W3) : X3 V (Proc.devRef .tc r) = V (Proc.devRef .tc r) :=
  (after_of_writes_sub s3 (X2 V) w3 h.2).trans (to2 V h.1)
theorem to4 {r : Ref sig .tc} (h : ((r ∉ W1 ∧ r ∉ W2) ∧ r ∉ W3) ∧ r ∉ W4) : X4 V (Proc.devRef .tc r) = V (Proc.devRef .tc r) :=
  (after_of_writes_sub s4 (X3 V) w4 h.2).trans (to3 V h.1)
theorem to5 {r : Ref sig .tc} (h : (((r ∉ W1 ∧ r ∉ W2) ∧ r ∉ W3) ∧ r ∉ W4) ∧ r ∉ W5) : X5 V (Proc.devRef .tc r) = V (Proc.devRef .tc r) :=
  (after_of_writes_sub s5 (X4 V) w5 h.2).trans (to4 V h.1)
theorem to6 {r : Ref sig .tc} (h : ((((r ∉ W1 ∧ r ∉ W2) ∧ r ∉ W3) ∧ r ∉ W4) ∧ r ∉ W5) ∧ r ∉ W6) : X6 V (Proc.devRef .tc r) = V (Proc.devRef .tc r) :=
  (after_of_writes_sub s6 (X5 V) w6 h.2).trans (to5 V h.1)
theorem to7 {r : Ref sig .tc} (h : (((((r ∉ W1 ∧ r ∉ W2) ∧ r ∉ W3) ∧ r ∉ W4) ∧ r ∉ W5) ∧ r ∉ W6) ∧ r ∉ W7) : X7 V (Proc.devRef .tc r) = V (Proc.devRef .tc r) :=
  (after_of_writes_sub s7 (X6 V) w7 h.2).trans (to6 V h.1)
theorem to8 {r : Ref sig .tc} (h : ((((((r ∉ W1 ∧ r ∉ W2) ∧ r ∉ W3) ∧ r ∉ W4) ∧ r ∉ W5) ∧ r ∉ W6) ∧ r ∉ W7) ∧ r ∉ W8) : X8 V (Proc.devRef .tc r) = V (Proc.devRef .tc r) :=
  (after_of_writes_sub s8 (X7 V) w8 h.2).trans (to7 V h.1)
theorem to9 {r : Ref sig .tc} (h : (((((((r ∉ W1 ∧ r ∉ W2) ∧ r ∉ W3) ∧ r ∉ W4) ∧ r ∉ W5) ∧ r ∉ W6) ∧ r ∉ W7) ∧ r ∉ W8) ∧ r ∉ W9) : X9 V (Proc.devRef .tc r) = V (Proc.devRef .tc r) :=
  (after_of_writes_sub s9 (X8 V) w9 h.2).trans (to8 V h.1)

/-- Each stretch's last value is its stage function of the arguments' start contents; %8 is kept across the third stretch and %26 across the last two. -/
theorem e4 : X1 V (Proc.devRef .tc main_v4) = ReadP.val_main_v4 (F := F) (V (Proc.devRef .tc main_arg0)) (V (Proc.devRef .tc main_arg1)) (V (Proc.devRef .tc main_arg2)) := cut1 V
theorem e8 : X2 V (Proc.devRef .tc main_v8) = ReadP.val_main_v8 (F := F) (V (Proc.devRef .tc main_arg0)) (V (Proc.devRef .tc main_arg1)) (V (Proc.devRef .tc main_arg2)) := cut2 (X1 V) _ _ _ (e4 V)
theorem e13 : X3 V (Proc.devRef .tc main_v13) = ReadP.val_main_v13 (F := F) (V (Proc.devRef .tc main_arg3)) :=
  cut3 (X2 V) _ (to2 V (r := main_arg3) (by decide))
theorem e8' : X3 V (Proc.devRef .tc main_v8) = ReadP.val_main_v8 (F := F) (V (Proc.devRef .tc main_arg0)) (V (Proc.devRef .tc main_arg1)) (V (Proc.devRef .tc main_arg2)) :=
  (after_of_writes_sub s3 (X2 V) w3 (r := main_v8) (by decide)).trans (e8 V)
theorem e14 : X4 V (Proc.devRef .tc main_v14) = ReadP.val_main_v14 (F := F) (V (Proc.devRef .tc main_arg0)) (V (Proc.devRef .tc main_arg1)) (V (Proc.devRef .tc main_arg2)) (V (Proc.devRef .tc main_arg3)) := cut4 (X3 V) _ _ _ _ (e8' V) (e13 V)
theorem e21 : X5 V (Proc.devRef .tc main_v21) = ReadP.val_main_v21 (F := F) (V (Proc.devRef .tc main_arg0)) (V (Proc.devRef .tc main_arg1)) (V (Proc.devRef .tc main_arg2)) (V (Proc.devRef .tc main_arg3)) := cut5 (X4 V) _ _ _ _ (e14 V)
theorem e25 : X6 V (Proc.devRef .tc main_v25) = ReadP.val_main_v25 (F := F) (V (Proc.devRef .tc main_arg0)) (V (Proc.devRef .tc main_arg1)) (V (Proc.devRef .tc main_arg2)) (V (Proc.devRef .tc main_arg3)) := cut6 (X5 V) _ _ _ _ (e21 V)
theorem e26 : X7 V (Proc.devRef .tc main_v26) = ReadP.val_main_v26 (F := F) (V (Proc.devRef .tc main_arg0)) (V (Proc.devRef .tc main_arg1)) (V (Proc.devRef .tc main_arg2)) (V (Proc.devRef .tc main_arg3)) (V (Proc.devRef .tc main_arg4)) :=
  cut7 (X6 V) _ _ _ _ _ (e25 V) (to6 V (r := main_arg4) (by decide))
theorem e33 : X8 V (Proc.devRef .tc main_v33) = ReadP.val_main_v33 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  cut8 (X7 V) _ _ _ _ _ _ _ (e26 V) (to7 V (r := main_arg0) (by decide)) (to7 V (r := main_arg5) (by decide)) (to7 V (r := main_arg6) (by decide))
theorem e26' : X8 V (Proc.devRef .tc main_v26) = ReadP.val_main_v26 (F := F) (V (Proc.devRef .tc main_arg0)) (V (Proc.devRef .tc main_arg1)) (V (Proc.devRef .tc main_arg2)) (V (Proc.devRef .tc main_arg3)) (V (Proc.devRef .tc main_arg4)) :=
  (after_of_writes_sub s8 (X7 V) w8 (r := main_v26) (by decide)).trans (e26 V)
theorem e38 : X9 V (Proc.devRef .tc main_v38) = ReadP.val_main_v38 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  cut9 (X8 V) _ _ _ _ _ _ _ (e33 V) (e26' V) (to8 V (r := main_arg0) (by decide))
theorem e26'' : X9 V (Proc.devRef .tc main_v26) = ReadP.val_main_v26 (F := F) (V (Proc.devRef .tc main_arg0)) (V (Proc.devRef .tc main_arg1)) (V (Proc.devRef .tc main_arg2)) (V (Proc.devRef .tc main_arg3)) (V (Proc.devRef .tc main_arg4)) :=
  (after_of_writes_sub s9 (X8 V) w9 (r := main_v26) (by decide)).trans (e26' V)

end Chain

/-! ## The run -/

/-- Every weakly fair execution of the reference program terminates; %38 and %26 are their stage functions
    of the arguments' launch contents, and the arguments hold what they held at launch. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = ReadP.val_main_v38 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v26) = ReadP.val_main_v26 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v38).trans ((congrFun (after_ops _) _).trans (e38 _)),
       (h c main_v26).trans ((congrFun (after_ops _) _).trans (e26'' _)),
       (h c main_arg0).trans ((congrFun (after_ops _) _).trans (to9 _ (r := main_arg0) (by decide))),
       (h c main_arg1).trans ((congrFun (after_ops _) _).trans (to9 _ (r := main_arg1) (by decide))),
       (h c main_arg2).trans ((congrFun (after_ops _) _).trans (to9 _ (r := main_arg2) (by decide))),
       (h c main_arg3).trans ((congrFun (after_ops _) _).trans (to9 _ (r := main_arg3) (by decide))),
       (h c main_arg4).trans ((congrFun (after_ops _) _).trans (to9 _ (r := main_arg4) (by decide))),
       (h c main_arg5).trans ((congrFun (after_ops _) _).trans (to9 _ (r := main_arg5) (by decide))),
       (h c main_arg6).trans ((congrFun (after_ops _) _).trans (to9 _ (r := main_arg6) (by decide)))⟩)
    (run_seq ValueP.scopedRefs_eq ValueP.scopedSems_eq defs main (fun _ => ValueP.ops) ValueP.main_eq (fun _ => ValueP.ops_sub) m ρ)

end Cert.ReferenceIdeal.RunP

end
-- ==== Proof.RefSide.lean ====
/-
  The reference program, stage by stage, read at an index.

  The reference works on all 16384 query rows at once, one array operation at a time.  Every operation acts on each
  query row by itself, so each stage, read at row p and a column, is one step of the specification's one-row
  computation applied to row p of the query array x:

    the affine map      y = x·Wᵀ + b: the product with the transposed weights W[j, k] read at (k, j), plus the bias
                        spread over the rows;
    the clipped length  max(ε, sqrt(0 + Σₖ yₖ²)): the squares summed along the row into a zero start value, the root,
                        and the comparison with the spread constant ε;
    the unit vector     y over its clipped length, the length spread over the row's 128 columns;
    the memory index    the same scaling applied to each of the 2048 memory rows, then transposed, so that entry
                        (k, r) of the transposed array is entry k of memory row r scaled to unit length;
    the scores          the product of the unit vectors with the transposed index: at (p, r) the dot product of the
                        row's unit vector with unit memory row r;
    the largest score   the running maximum along the 2048 scores from minus infinity, compared with minus infinity
                        once more;
    the softmax         the exponential of each score less the largest, over the sum of those exponentials (summed
                        into a zero start value);
    the memory read     the product of the softmax weights with the memory bank: Σᵣ aᵣ·M[r, j];
    the join            the read and the query row side by side: column c below 128 is the read's entry c, column c
                        from 128 on is the row's entry c - 128;
    the gate            tanh of the joined row times the transposed gate weights W₂[j, c] read at (c, j), plus the
                        second bias;
    the mix             (1 - g)·x + g·read.

  So the reference's two results are the specification's two arrays: the second result is every row's memory read, and
  the first is every row's gated mix with its read.
-/
import proofs.«160925_j54520314856137_1_alg».proof.Proof.RefRead
import proofs.«160925_j54520314856137_1_alg».proof.Proof.SpecArr
import proofs.«160925_j54520314856137_1_alg».proof.Proof.Stages
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Side

open Cert.ReferenceIdeal Cert.ReferenceIdeal.Gen Cert.ReferenceIdeal.ReadP Idealize.ShloMosaic Idealize.ShloMosaic.ValueIdx

/-! ## Indices by their coordinates -/

/-- A rank-2 index with coordinates a and b is (a, b). -/
theorem ix2_of_val {n0 n1 : Nat} {i : (⟨2, ![n0, n1]⟩ : Shape).Idx} {a : Fin n0} {b : Fin n1}
    (h0 : (i 0).val = a.val) (h1 : (i 1).val = b.val) : i = ix2 a b := by
  funext d
  apply Fin.ext
  match d with
  | ⟨0, _⟩ => exact h0
  | ⟨1, _⟩ => exact h1

/-- A rank-1 index with coordinate a is (a). -/
theorem ix1_of_val {n : Nat} {i : (⟨1, ![n]⟩ : Shape).Idx} {a : Fin n} (h0 : (i 0).val = a.val) : i = ix1 a := by
  funext d
  apply Fin.ext
  match d with
  | ⟨0, _⟩ => exact h0

/-- The zero word added in front of a sum changes nothing. -/
theorem zeroW_add (x : EReal) : GatedRead.zeroW + x = x := by
  rw [GatedRead.zeroW_eq, zero_add]

/-! ## The query side: affine map, clipped length, unit vector -/

/-- The affine map at (p, j). -/
theorem tq_apply (x0 : (⟨S16384x128, .f32⟩ : BufTy).Contents (Elt Ideal)) (x1 : (⟨S128x128, .f32⟩ : BufTy).Contents (Elt Ideal))
    (x2 : (⟨S128, .f32⟩ : BufTy).Contents (Elt Ideal)) (p : Fin 16384) (j : Fin 128) :
    val_main_v4 (F := Ideal) x0 x1 x2 (ix2 p j)
      = GatedRead.affine (GatedRead.mat x1) (GatedRead.vec x2) (GatedRead.rowOf x0 p) j := by
  rw [val_main_v4_apply, val_main_v1_apply, val_main_v3_apply, val_main_v2_apply]
  unfold GatedRead.affine
  refine congrArg₂ (· + ·) (Finset.sum_congr rfl fun k _ => ?_) ?_
  · rw [val_main_v0_apply]
    refine congrArg₂ (· * ·) (congrArg x0 (ix2_of_val rfl rfl)) (congrArg x1 (ix2_of_val rfl rfl))
  · exact congrArg x2 (ix1_of_val rfl)

/-- The clipped length of row p's image. -/
theorem nrm_apply (x0 : (⟨S16384x128, .f32⟩ : BufTy).Contents (Elt Ideal)) (x1 : (⟨S128x128, .f32⟩ : BufTy).Contents (Elt Ideal))
    (x2 : (⟨S128, .f32⟩ : BufTy).Contents (Elt Ideal)) (p : Fin 16384) (z : Fin 1) :
    val_main_v6 (F := Ideal) x0 x1 x2 (ix2 p z)
      = GatedRead.clipNorm (GatedRead.affine (GatedRead.mat x1) (GatedRead.vec x2) (GatedRead.rowOf x0 p)) := by
  rw [val_main_v6_apply, val_main_call1_v1_apply, val_main_call1_v0_apply, val_main_cst_apply, val_main_v5_apply,
    val_main_call0_v2_apply, val_main_call0_v1_apply, val_main_call0_cst_apply]
  refine Eq.trans ?_ (GatedRead.clipNorm_eq' _)
  refine congrArg (fun s => max GatedRead.epsW (Ideal.sqrt (GatedRead.zeroW + s))) (Finset.sum_congr rfl fun k _ => ?_)
  rw [val_main_call0_v0_apply]
  have e : idx_main_call0_v1 (idx_main_call0_v2 (ix2 p z)) k = ix2 p k := ix2_of_val rfl rfl
  rw [e, tq_apply]
  rfl

/-- The unit vector of row p's image, at column k. -/
theorem unit_apply (x0 : (⟨S16384x128, .f32⟩ : BufTy).Contents (Elt Ideal)) (x1 : (⟨S128x128, .f32⟩ : BufTy).Contents (Elt Ideal))
    (x2 : (⟨S128, .f32⟩ : BufTy).Contents (Elt Ideal)) (p : Fin 16384) (k : Fin 128) :
    val_main_v8 (F := Ideal) x0 x1 x2 (ix2 p k)
      = GatedRead.unit (GatedRead.affine (GatedRead.mat x1) (GatedRead.vec x2) (GatedRead.rowOf x0 p)) k := by
  rw [val_main_v8_apply, val_main_v7_apply, tq_apply]
  have e : idx_main_v7 (ix2 p k) = ix2 p (0 : Fin 1) := ix2_of_val rfl rfl
  rw [e, nrm_apply]
  rfl

/-! ## The memory index: each row to unit length, then transposed -/

/-- The clipped length of memory row r. -/
theorem inrm_apply (x3 : (⟨S2048x128, .f32⟩ : BufTy).Contents (Elt Ideal)) (r : Fin 2048) (z : Fin 1) :
    val_main_v10 (F := Ideal) x3 (ix2 r z) = GatedRead.clipNorm (GatedRead.mat x3 r) := by
  rw [val_main_v10_apply, val_main_call3_v1_apply, val_main_call3_v0_apply, val_main_cst_0_apply, val_main_v9_apply,
    val_main_call2_v2_apply, val_main_call2_v1_apply, val_main_call2_cst_apply]
  refine Eq.trans ?_ (GatedRead.clipNorm_eq' _)
  refine congrArg (fun s => max GatedRead.epsW (Ideal.sqrt (GatedRead.zeroW + s))) (Finset.sum_congr rfl fun k _ => ?_)
  rw [val_main_call2_v0_apply]
  have e : idx_main_call2_v1 (idx_main_call2_v2 (ix2 r z)) k = ix2 r k := ix2_of_val rfl rfl
  rw [e]
  rfl

/-- Entry (k, r) of the transposed, normalized memory index: entry k of memory row r scaled to unit length. -/
theorem index_apply (x3 : (⟨S2048x128, .f32⟩ : BufTy).Contents (Elt Ideal)) (k : Fin 128) (r : Fin 2048) :
    val_main_v13 (F := Ideal) x3 (ix2 k r) = GatedRead.unitRows (GatedRead.mat x3) r k := by
  rw [val_main_v13_apply]
  have e : idx_main_v13 (ix2 k r) = ix2 r k := ix2_of_val rfl rfl
  rw [e, val_main_v12_apply, val_main_v11_apply]
  have e' : idx_main_v11 (ix2 r k) = ix2 r (0 : Fin 1) := ix2_of_val rfl rfl
  rw [e', inrm_apply]
  rfl

/-! ## The scores and their softmax -/

/-- The score of row p against memory row r. -/
theorem score_apply (x0 : (⟨S16384x128, .f32⟩ : BufTy).Contents (Elt Ideal)) (x1 : (⟨S128x128, .f32⟩ : BufTy).Contents (Elt Ideal))
    (x2 : (⟨S128, .f32⟩ : BufTy).Contents (Elt Ideal)) (x3 : (⟨S2048x128, .f32⟩ : BufTy).Contents (Elt Ideal))
    (p : Fin 16384) (r : Fin 2048) :
    val_main_v14 (F := Ideal) x0 x1 x2 x3 (ix2 p r)
      = GatedRead.score (GatedRead.unitRows (GatedRead.mat x3))
          (GatedRead.unit (GatedRead.affine (GatedRead.mat x1) (GatedRead.vec x2) (GatedRead.rowOf x0 p))) r := by
  rw [val_main_v14_apply]
  unfold GatedRead.score
  refine Finset.sum_congr rfl fun k _ => ?_
  have el : lidx_main_v14 (ix2 p r) k = ix2 p k := ix2_of_val rfl rfl
  have er : ridx_main_v14 (ix2 p r) k = ix2 k r := ix2_of_val rfl rfl
  rw [el, er, unit_apply, index_apply]

/-- Row p's scores, as a function of the memory row. -/
abbrev scoresOf (x0 : (⟨S16384x128, .f32⟩ : BufTy).Contents (Elt Ideal)) (x1 : (⟨S128x128, .f32⟩ : BufTy).Contents (Elt Ideal))
    (x2 : (⟨S128, .f32⟩ : BufTy).Contents (Elt Ideal)) (x3 : (⟨S2048x128, .f32⟩ : BufTy).Contents (Elt Ideal))
    (p : Fin 16384) : Fin 2048 → EReal :=
  fun r => val_main_v14 (F := Ideal) x0 x1 x2 x3 (ix2 p r)

/-- The running maximum along row p's scores, from minus infinity. -/
theorem rowMax_apply (x0 : (⟨S16384x128, .f32⟩ : BufTy).Contents (Elt Ideal)) (x1 : (⟨S128x128, .f32⟩ : BufTy).Contents (Elt Ideal))
    (x2 : (⟨S128, .f32⟩ : BufTy).Contents (Elt Ideal)) (x3 : (⟨S2048x128, .f32⟩ : BufTy).Contents (Elt Ideal))
    (p : Fin 16384) :
    val_main_v15 (F := Ideal) x0 x1 x2 x3 (ix1 p)
      = (Finset.univ : Finset (Fin 2048)).fold max GatedRead.ninfW (scoresOf x0 x1 x2 x3 p) := by
  unfold val_main_v15
  have h : S16384x2048.Reduces [1] S16384 := by decide
  have key := Host.reduce_eq_fold_single (FloatOps.maximumf (F := Ideal) (φ := .f32)) (val_main_v14 (F := Ideal) x0 x1 x2 x3)
    (val_main_cst_1 (F := Ideal)) reducesTo_S16384x2048_S16384_d1 h h_S_ (ix1 p)
  have e : (val_main_v14 (F := Ideal) x0 x1 x2 x3 ∘ h.lift (ix1 p)) = scoresOf x0 x1 x2 x3 p :=
    funext fun k => congrArg (val_main_v14 (F := Ideal) x0 x1 x2 x3) (Cert.KernelIdeal.Stage.lift_axis1 h p k)
  rw [e, val_main_cst_1_apply] at key
  exact key

/-- Row p's largest score. -/
theorem top_apply (x0 : (⟨S16384x128, .f32⟩ : BufTy).Contents (Elt Ideal)) (x1 : (⟨S128x128, .f32⟩ : BufTy).Contents (Elt Ideal))
    (x2 : (⟨S128, .f32⟩ : BufTy).Contents (Elt Ideal)) (x3 : (⟨S2048x128, .f32⟩ : BufTy).Contents (Elt Ideal))
    (p : Fin 16384) :
    val_main_v17 (F := Ideal) x0 x1 x2 x3 (ix1 p) = GatedRead.top (scoresOf x0 x1 x2 x3 p) := by
  rw [val_main_v17_apply, val_main_v16_apply, val_main_cst_2_apply, rowMax_apply]
  rfl

/-- The exponential of row p's score against memory row r, less the row's largest score. -/
theorem exp_apply (x0 : (⟨S16384x128, .f32⟩ : BufTy).Contents (Elt Ideal)) (x1 : (⟨S128x128, .f32⟩ : BufTy).Contents (Elt Ideal))
    (x2 : (⟨S128, .f32⟩ : BufTy).Contents (Elt Ideal)) (x3 : (⟨S2048x128, .f32⟩ : BufTy).Contents (Elt Ideal))
    (p : Fin 16384) (r : Fin 2048) :
    val_main_v21 (F := Ideal) x0 x1 x2 x3 (ix2 p r) = GatedRead.expShift (scoresOf x0 x1 x2 x3 p) r := by
  rw [val_main_v21_apply, val_main_v20_apply, val_main_v19_apply, val_main_v18_apply]
  have e : idx_main_v18 (idx_main_v19 (ix2 p r)) = ix1 p := ix1_of_val rfl
  rw [e, top_apply]
  simp only [Ideal.hostUnary_exp_def, Ideal.subf_def]
  rfl

/-- The sum of those exponentials along row p. -/
theorem expSum_apply (x0 : (⟨S16384x128, .f32⟩ : BufTy).Contents (Elt Ideal)) (x1 : (⟨S128x128, .f32⟩ : BufTy).Contents (Elt Ideal))
    (x2 : (⟨S128, .f32⟩ : BufTy).Contents (Elt Ideal)) (x3 : (⟨S2048x128, .f32⟩ : BufTy).Contents (Elt Ideal))
    (p : Fin 16384) :
    val_main_v22 (F := Ideal) x0 x1 x2 x3 (ix1 p) = ∑ r' : Fin 2048, GatedRead.expShift (scoresOf x0 x1 x2 x3 p) r' := by
  rw [val_main_v22_apply, val_main_cst_3_apply]
  refine (zeroW_add _).trans (Finset.sum_congr rfl fun k _ => ?_)
  have e : idx_main_v22 (ix1 p) k = ix2 p k := ix2_of_val rfl rfl
  rw [e, exp_apply]

/-- The softmax weight of memory row r for query row p. -/
theorem soft_apply (x0 : (⟨S16384x128, .f32⟩ : BufTy).Contents (Elt Ideal)) (x1 : (⟨S128x128, .f32⟩ : BufTy).Contents (Elt Ideal))
    (x2 : (⟨S128, .f32⟩ : BufTy).Contents (Elt Ideal)) (x3 : (⟨S2048x128, .f32⟩ : BufTy).Contents (Elt Ideal))
    (p : Fin 16384) (r : Fin 2048) :
    val_main_v25 (F := Ideal) x0 x1 x2 x3 (ix2 p r) = GatedRead.softmax (scoresOf x0 x1 x2 x3 p) r := by
  rw [val_main_v25_apply, val_main_v24_apply, val_main_v23_apply, exp_apply]
  have e : idx_main_v23 (idx_main_v24 (ix2 p r)) = ix1 p := ix1_of_val rfl
  rw [e, expSum_apply]
  rfl

/-! ## The memory read -/

/-- The memory read of query row p, at column j. -/
theorem read_apply (x0 : (⟨S16384x128, .f32⟩ : BufTy).Contents (Elt Ideal)) (x1 : (⟨S128x128, .f32⟩ : BufTy).Contents (Elt Ideal))
    (x2 : (⟨S128, .f32⟩ : BufTy).Contents (Elt Ideal)) (x3 x4 : (⟨S2048x128, .f32⟩ : BufTy).Contents (Elt Ideal))
    (p : Fin 16384) (j : Fin 128) :
    val_main_v26 (F := Ideal) x0 x1 x2 x3 x4 (ix2 p j)
      = GatedRead.memRow (GatedRead.mat x1) (GatedRead.vec x2) (GatedRead.unitRows (GatedRead.mat x3)) (GatedRead.mat x4)
          (GatedRead.rowOf x0 p) j := by
  rw [val_main_v26_apply]
  unfold GatedRead.memRow GatedRead.readMem
  have es : scoresOf x0 x1 x2 x3 p
      = GatedRead.score (GatedRead.unitRows (GatedRead.mat x3))
          (GatedRead.unit (GatedRead.affine (GatedRead.mat x1) (GatedRead.vec x2) (GatedRead.rowOf x0 p))) :=
    funext fun r => score_apply x0 x1 x2 x3 p r
  refine Finset.sum_congr rfl fun r _ => ?_
  have el : lidx_main_v26 (ix2 p j) r = ix2 p r := ix2_of_val rfl rfl
  have er : ridx_main_v26 (ix2 p j) r = ix2 r j := ix2_of_val rfl rfl
  rw [el, er, soft_apply, es]

/-! ## The join, the gate and the mix -/

/-- The read and the query row side by side, at column c of 256. -/
theorem join_apply (x0 : (⟨S16384x128, .f32⟩ : BufTy).Contents (Elt Ideal)) (x1 : (⟨S128x128, .f32⟩ : BufTy).Contents (Elt Ideal))
    (x2 : (⟨S128, .f32⟩ : BufTy).Contents (Elt Ideal)) (x3 x4 : (⟨S2048x128, .f32⟩ : BufTy).Contents (Elt Ideal))
    (p : Fin 16384) (c : Fin 256) :
    val_main_v27 (F := Ideal) x0 x1 x2 x3 x4 (ix2 p c)
      = GatedRead.joined (fun j => val_main_v26 (F := Ideal) x0 x1 x2 x3 x4 (ix2 p j)) (GatedRead.rowOf x0 p) c := by
  unfold val_main_v27 GatedRead.joined
  by_cases hc : c.val < 128
  · rw [dif_pos hc]
    refine concatenate_pair_apply_left (1 : Fin S16384x256.rank) (val_main_v26 (F := Ideal) x0 x1 x2 x3 x4) x0
      concatenates_S16384x128_S16384x128_S16384x256_d1 (ix2 p c) rfl (ix2 p ⟨c.val, hc⟩) fun b => ?_
    match b with
    | ⟨0, _⟩ => rfl
    | ⟨1, _⟩ => rfl
  · rw [dif_neg hc]
    refine concatenate_pair_apply_right (1 : Fin S16384x256.rank) (val_main_v26 (F := Ideal) x0 x1 x2 x3 x4) x0
      concatenates_S16384x128_S16384x128_S16384x256_d1 (ix2 p c) rfl rfl
      (ix2 p ⟨c.val - 128, by have := c.isLt; omega⟩) (fun b hb => ?_) ?_
    · match b with
      | ⟨0, _⟩ => rfl
      | ⟨1, _⟩ => exact absurd rfl hb
    · show (c.val - 128) + 128 = c.val
      omega

/-- The gate of query row p, at column j. -/
theorem gate_apply (x0 : (⟨S16384x128, .f32⟩ : BufTy).Contents (Elt Ideal)) (x1 : (⟨S128x128, .f32⟩ : BufTy).Contents (Elt Ideal))
    (x2 : (⟨S128, .f32⟩ : BufTy).Contents (Elt Ideal)) (x3 x4 : (⟨S2048x128, .f32⟩ : BufTy).Contents (Elt Ideal))
    (x5 : (⟨S128x256, .f32⟩ : BufTy).Contents (Elt Ideal)) (x6 : (⟨S128, .f32⟩ : BufTy).Contents (Elt Ideal))
    (p : Fin 16384) (j : Fin 128) :
    val_main_v33 (F := Ideal) x0 x1 x2 x3 x4 x5 x6 (ix2 p j)
      = GatedRead.gate (GatedRead.mat x5) (GatedRead.vec x6)
          (GatedRead.memRow (GatedRead.mat x1) (GatedRead.vec x2) (GatedRead.unitRows (GatedRead.mat x3)) (GatedRead.mat x4)
            (GatedRead.rowOf x0 p))
          (GatedRead.rowOf x0 p) j := by
  rw [val_main_v33_apply, val_main_v32_apply, val_main_v29_apply, val_main_v31_apply, val_main_v30_apply]
  unfold GatedRead.gate
  have em : (fun j => val_main_v26 (F := Ideal) x0 x1 x2 x3 x4 (ix2 p j))
      = GatedRead.memRow (GatedRead.mat x1) (GatedRead.vec x2) (GatedRead.unitRows (GatedRead.mat x3)) (GatedRead.mat x4)
          (GatedRead.rowOf x0 p) := funext fun j => read_apply x0 x1 x2 x3 x4 p j
  simp only [Ideal.hostUnary_tanh_def, Ideal.addf_def]
  refine congrArg Ideal.tanh (congrArg₂ (· + ·) (Finset.sum_congr rfl fun c _ => ?_) (congrArg x6 (ix1_of_val rfl)))
  have el : lidx_main_v29 (ix2 p j) c = ix2 p c := ix2_of_val rfl rfl
  have er : ridx_main_v29 (ix2 p j) c = ix2 c j := ix2_of_val rfl rfl
  rw [el, er, join_apply, em, val_main_v28_apply]
  exact congrArg (_ * ·) (congrArg x5 (ix2_of_val rfl rfl))

/-- The gated mix of query row p and its read, at column j. -/
theorem mix_apply (x0 : (⟨S16384x128, .f32⟩ : BufTy).Contents (Elt Ideal)) (x1 : (⟨S128x128, .f32⟩ : BufTy).Contents (Elt Ideal))
    (x2 : (⟨S128, .f32⟩ : BufTy).Contents (Elt Ideal)) (x3 x4 : (⟨S2048x128, .f32⟩ : BufTy).Contents (Elt Ideal))
    (x5 : (⟨S128x256, .f32⟩ : BufTy).Contents (Elt Ideal)) (x6 : (⟨S128, .f32⟩ : BufTy).Contents (Elt Ideal))
    (p : Fin 16384) (j : Fin 128) :
    val_main_v38 (F := Ideal) x0 x1 x2 x3 x4 x5 x6 (ix2 p j)
      = GatedRead.outRow (GatedRead.mat x1) (GatedRead.vec x2) (GatedRead.unitRows (GatedRead.mat x3)) (GatedRead.mat x4)
          (GatedRead.mat x5) (GatedRead.vec x6) (GatedRead.rowOf x0 p) j := by
  rw [val_main_v38_apply, val_main_v36_apply, val_main_v37_apply, val_main_v35_apply, val_main_v34_apply,
    val_main_cst_4_apply, gate_apply, read_apply]
  rfl

/-! ## The two results -/

/-- The reference's second result is the specification's array of memory reads. -/
theorem mem_eq (x0 : (⟨S16384x128, .f32⟩ : BufTy).Contents (Elt Ideal)) (x1 : (⟨S128x128, .f32⟩ : BufTy).Contents (Elt Ideal))
    (x2 : (⟨S128, .f32⟩ : BufTy).Contents (Elt Ideal)) (x3 x4 : (⟨S2048x128, .f32⟩ : BufTy).Contents (Elt Ideal)) :
    val_main_v26 (F := Ideal) x0 x1 x2 x3 x4 = GatedRead.memArr x0 x1 x2 x3 x4 := by
  funext i
  obtain ⟨p, j, rfl⟩ : ∃ (p : Fin 16384) (j : Fin 128), i = ix2 p j := ⟨_, _, eq_ix2 i⟩
  rw [GatedRead.memArr_ix2]
  exact read_apply x0 x1 x2 x3 x4 p j

/-- The reference's first result is the specification's array of gated mixes. -/
theorem out_eq (x0 : (⟨S16384x128, .f32⟩ : BufTy).Contents (Elt Ideal)) (x1 : (⟨S128x128, .f32⟩ : BufTy).Contents (Elt Ideal))
    (x2 : (⟨S128, .f32⟩ : BufTy).Contents (Elt Ideal)) (x3 x4 : (⟨S2048x128, .f32⟩ : BufTy).Contents (Elt Ideal))
    (x5 : (⟨S128x256, .f32⟩ : BufTy).Contents (Elt Ideal)) (x6 : (⟨S128, .f32⟩ : BufTy).Contents (Elt Ideal)) :
    val_main_v38 (F := Ideal) x0 x1 x2 x3 x4 x5 x6 = GatedRead.outArr x0 x1 x2 x3 x4 x5 x6 := by
  funext i
  obtain ⟨p, j, rfl⟩ : ∃ (p : Fin 16384) (j : Fin 128), i = ix2 p j := ⟨_, _, eq_ix2 i⟩
  rw [GatedRead.outArr_ix2]
  exact mix_apply x0 x1 x2 x3 x4 x5 x6 p j

end Cert.ReferenceIdeal.Side

end
-- ==== Proof.lean ====
/-
  The kernel against its reference: one function of the arguments, row by row.

  For each of the 16384 query rows x both programs compute, over the extended reals, the same two rows of numbers.
  The row goes through an affine map and is scaled to unit length, the length clipped below by a small constant; the
  2048 rows of the memory index are scaled the same way; the dot products of the unit vectors are the row's scores,
  which go through a softmax; the memory read is the softmax-weighted sum of the memory bank's rows; a gate, the tanh
  of an affine map of the read and the row side by side, mixes the row and the read.  The results are the mixes and
  the reads.

  The kernel works on blocks of 1024 rows, one grid point per block, with the weights, the prepared memory index
  and the memory bank staged whole at every point; the reference works on all rows at once.  A change of float
  format is the identity on the extended reals, a matrix product into a zero accumulator and the host's general dot
  product are the same sum over the contracted axis, and a sum or a maximum along an axis is the same sum or
  running maximum on both sides.  The two sides differ only in the order of the two operands of one maximum (the
  clip of a length by the constant), which commutes, and in a zero the host adds in front of its sums.  No step
  divides out, cancels or distributes anything, so the inputs' finiteness is never used.

  The three frames: the two kernel programs' are the generated frame certificates; the reference has no kernel, and
  its frame is its run with the results dropped.  The idealized kernel is the kernel's own text read over the extended
  reals (no rewrite was applied), so there is nothing to preserve.
-/
import proofs.«160925_j54520314856137_1_alg».proof.Defs
import proofs.«160925_j54520314856137_1_alg».proof.Proof.Gen.Kernel
import proofs.«160925_j54520314856137_1_alg».proof.Proof.Gen.Kernel.Skeleton
import proofs.«160925_j54520314856137_1_alg».proof.Proof.Gen.Kernel.Launch
import proofs.«160925_j54520314856137_1_alg».proof.Proof.Gen.Kernel.Points
import proofs.«160925_j54520314856137_1_alg».proof.Proof.Gen.Kernel.Frame
import proofs.«160925_j54520314856137_1_alg».proof.Proof.Gen.KernelIdeal
import proofs.«160925_j54520314856137_1_alg».proof.Proof.Gen.KernelIdeal.Skeleton
import proofs.«160925_j54520314856137_1_alg».proof.Proof.Gen.KernelIdeal.Launch
import proofs.«160925_j54520314856137_1_alg».proof.Proof.Gen.KernelIdeal.Points
import proofs.«160925_j54520314856137_1_alg».proof.Proof.Gen.KernelIdeal.Frame
import proofs.«160925_j54520314856137_1_alg».proof.Proof.Gen.ReferenceIdeal
import proofs.«160925_j54520314856137_1_alg».proof.Proof.Gen.Pre_finite_inputs
import proofs.«160925_j54520314856137_1_alg».proof.Proof.Gen.KernelIdeal.Value
import proofs.«160925_j54520314856137_1_alg».proof.Proof.KernelArray
import proofs.«160925_j54520314856137_1_alg».proof.Proof.RefRun
import proofs.«160925_j54520314856137_1_alg».proof.Proof.RefSide
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and no operation writes an argument. -/
theorem frame_referenceIdeal : Cert.frame_ReferenceIdeal := fun m ρ _ =>
  (θ_run Cert.ReferenceIdeal.defs _ _).mono (fun _ h c => (h c).2.2) (Cert.ReferenceIdeal.RunP.run (F := Ideal) m ρ)

/-- The reading of the normalized, transposed memory index, proved on the reference's side. -/
theorem indexReading : Cert.KernelIdeal.Arrays.IndexReading :=
  fun x3 k r => Cert.ReferenceIdeal.Side.index_apply x3 k r

/-- From memories that agree on the arguments, both programs end with the first result at every row's gated mix and
    the second at every row's memory read. -/
theorem algebraic : Cert.algebraic_KernelIdeal_ReferenceIdeal := by
  intro m ρ m' ρ' _ hagree
  refine ⟨fun c => GatedRead.outArr (Cert.KernelIdeal.Arrays.a0 m c) (Cert.KernelIdeal.Arrays.a1 m c) (Cert.KernelIdeal.Arrays.a2 m c)
      (Cert.KernelIdeal.Arrays.a3 m c) (Cert.KernelIdeal.Arrays.a4 m c) (Cert.KernelIdeal.Arrays.a5 m c) (Cert.KernelIdeal.Arrays.a6 m c),
    fun c => GatedRead.memArr (Cert.KernelIdeal.Arrays.a0 m c) (Cert.KernelIdeal.Arrays.a1 m c) (Cert.KernelIdeal.Arrays.a2 m c)
      (Cert.KernelIdeal.Arrays.a3 m c) (Cert.KernelIdeal.Arrays.a4 m c),
    Cert.KernelIdeal.Arrays.run m ρ indexReading, ?_⟩
  refine (θ_run Cert.ReferenceIdeal.defs _ _).mono (fun _ h c => ⟨(h c).1.trans ?_, (h c).2.1.trans ?_, (h c).2.2⟩)
    (Cert.ReferenceIdeal.RunP.run (F := Ideal) m' ρ')
  · rw [Cert.ReferenceIdeal.Side.out_eq, (hagree c).1, (hagree c).2.1, (hagree c).2.2.1, (hagree c).2.2.2.1,
      (hagree c).2.2.2.2.1, (hagree c).2.2.2.2.2.1, (hagree c).2.2.2.2.2.2]
  · rw [Cert.ReferenceIdeal.Side.mem_eq, (hagree c).1, (hagree c).2.1, (hagree c).2.2.1, (hagree c).2.2.2.1,
      (hagree c).2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
